-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn_part1 {F : FTy → Type} [FloatOps F] (main_arg4 : FVec F S16384x256 .f32) (main_arg5 : FVec F S16384x256 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S16384x256 .f32 := Host.absf main_arg4
  let main_cst_6 : FVec F S_ .f32 := constant S_ .f32 0x7F800000#32
  let main_v20 : FVec F S16384x256 .f32 := broadcastInDim S16384x256 ![] bcast_S_S16384x256 main_cst_6
  let main_v21 : IVec S16384x256 1 := cmpf .olt main_v19 main_v20
  let main_c_7 : IVec S_ 1 := constantI S_ 1 1#1
  let main_v22 : IVec S_ 1 := (fun x v => Host.reduce IntOp.andi x v reducesTo_S16384x256_S_d0_1 h_S_) main_v21 main_c_7
  let main_v23 : IVec S_ 1 := andi main_v18 main_v22
  let main_v24 : FVec F S16384x256 .f32 := Host.absf main_arg5
  let main_cst_8 : FVec F S_ .f32 := constant S_ .f32 0x7F800000#32
  let main_v25 : FVec F S16384x256 .f32 := broadcastInDim S16384x256 ![] bcast_S_S16384x256 main_cst_8
  let main_v26 : IVec S16384x256 1 := cmpf .olt main_v24 main_v25
  let main_c_9 : IVec S_ 1 := constantI S_ 1 1#1
  let main_v27 : IVec S_ 1 := (fun x v => Host.reduce IntOp.andi x v reducesTo_S16384x256_S_d0_1 h_S_) main_v26 main_c_9
  let main_v28 : IVec S_ 1 := andi main_v23 main_v27
  main_v28

def fn {F : FTy → Type} [FloatOps F] (main_arg0 : FVec F S16384x256 .f32) (main_arg1 : FVec F S16384x256 .f32) (main_arg2 : FVec F S16384x256 .f32) (main_arg3 : FVec F S16384x256 .f32) (main_arg4 : FVec F S16384x256 .f32) (main_arg5 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_v13 main_v16
-- ==== Kernel.lean ====
abbrev S16384x256 : Shape := ⟨2, ![16384, 256]⟩
abbrev S16384x1 : Shape := ⟨2, ![16384, 1]⟩
abbrev S32x256 : Shape := ⟨2, ![32, 256]⟩
abbrev S32x1 : Shape := ⟨2, ![32, 1]⟩
abbrev S32x256x1 : Shape := ⟨3, ![32, 256, 1]⟩
abbrev S32x1x256 : Shape := ⟨3, ![32, 1, 256]⟩
abbrev S32x256x256 : Shape := ⟨3, ![32, 256, 256]⟩
abbrev S32 : Shape := ⟨1, ![32]⟩
abbrev S16384 : Shape := ⟨1, ![16384]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x1, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x1, .f32⟩
  | .local _ .vmem, ⟨13, _⟩ => ⟨S32x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S32x256_S32x256_0_0 : ∀ a, (![0, 0] : Fin 2 → Nat) a + S32x256.size a ≤ S32x256.size a
  h_S32x256 : 0 < S32x256.numel
  bitsLt_bf16_f32 : FTy.bits .bf16 < FTy.bits .f32
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  natLt_1_32 : 1 < 32
  shapeCasts_S32x256x1_S32x256 : S32x256x1.ShapeCasts S32x256
  reduces_S32x256_S32 : S32x256.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S16384x1_S16384 : S16384x1.ShapeCasts S16384
  reducesTo_S16384_S_d0 : S16384.ReducesTo [0] S_
  h_S_ : 0 < S_.numel
  dot_S32x256x256_S32x256x1_S32x256x1_2_1_1_2_0_0_wf : DotDims.WF S32x256x256 S32x256x1 S32x256x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S16384x256.size a
  hwx0_0 : ∀ i : grid0.Coords, EltTy.bits .f32 = 32 ∨ (Rect.block (s := S16384x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S16384x256.size a
  hwx0_1 : ∀ i : grid0.Coords, EltTy.bits .f32 = 32 ∨ (Rect.block (s := S16384x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S16384x256.size a
  hwx0_2 : ∀ i : grid0.Coords, EltTy.bits .f32 = 32 ∨ (Rect.block (s := S16384x256) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S16384x256.size a
  hwx0_3 : ∀ i : grid0.Coords, EltTy.bits .f32 = 32 ∨ (Rect.block (s := S16384x256) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S16384x256.size a
  hwx0_4 : ∀ i : grid0.Coords, EltTy.bits .f32 = 32 ∨ (Rect.block (s := S16384x256) S32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S16384x256.size a
  hwx0_5 : ∀ i : grid0.Coords, EltTy.bits .f32 = 32 ∨ (Rect.block (s := S16384x256) S32x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S16384x1.size a
  hwx0_6 : ∀ i : grid0.Coords, EltTy.bits .f32 = 32 ∨ (Rect.block (s := S16384x1) S32x1.size (cc0_transform_6 i) (hinb0_6 i)).WholeWords (EltTy.packing .f32)

variable [Facts₀]

def dot_S32x256x256_S32x256x1_S32x256x1_2_1_1_2_0_0 : DotDims S32x256x256 S32x256x1 S32x256x1 where
  lhsContracting := [2]
  rhsContracting := [1]
  lhsNonContracting := [1]
  rhsNonContracting := [2]
  lhsBatch := [0]
  rhsBatch := [0]
  wf := dot_S32x256x256_S32x256x1_S32x256x1_2_1_1_2_0_0_wf

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S4194304 : Shape := ⟨1, ![4194304]⟩
abbrev S32768000 : Shape := ⟨1, ![32768000]⟩
abbrev S4194304x1 : Shape := ⟨2, ![4194304, 1]⟩
abbrev S16384x2000 : Shape := ⟨2, ![16384, 2000]⟩

abbrev nBuf : Space → Nat
  | .hbm => 113
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S_, .f32⟩
  | .hbm, ⟨8, _⟩ => ⟨S16384x256, .f32⟩
  | .hbm, ⟨9, _⟩ => ⟨S16384x256, .f32⟩
  | .hbm, ⟨10, _⟩ => ⟨S_, .f32⟩
  | .hbm, ⟨11, _⟩ => ⟨S16384x256, .f32⟩
  | .hbm, ⟨12, _⟩ => ⟨S16384x256, .f32⟩
  | .hbm, ⟨13, _⟩ => ⟨S16384x256, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16384x256, .i32⟩
  | .hbm, ⟨18, _⟩ => ⟨S16384x256, .i32⟩
  | .hbm, ⟨19, _⟩ => ⟨S_, .i32⟩
  | .hbm, ⟨20, _⟩ => ⟨S16384x256, .i32⟩
  | .hbm, ⟨21, _⟩ => ⟨S16384x256, .i32⟩
  | .hbm, ⟨22, _⟩ => ⟨S16384, .i32⟩
  | .hbm, ⟨23, _⟩ => ⟨S16384x1, .i32⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x256, .i32⟩
  | .hbm, ⟨28, _⟩ => ⟨S16384x256, .i32⟩
  | .hbm, ⟨29, _⟩ => ⟨S4194304, .i32⟩
  | .hbm, ⟨30, _⟩ => ⟨S4194304, .f32⟩
  | .hbm, ⟨31, _⟩ => ⟨S_, .f32⟩
  | .hbm, ⟨32, _⟩ => ⟨S32768000, .f32⟩
  | .hbm, ⟨33, _⟩ => ⟨S4194304x1, .i32⟩
  | .hbm, ⟨34, _⟩ => ⟨S32768000, .f32⟩
  | .hbm, ⟨35, _⟩ => ⟨S16384x2000, .f32⟩
  | .hbm, ⟨36, _⟩ => ⟨S16384x2000, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x2000, .f32⟩
  | .hbm, ⟨45, _⟩ => ⟨S16384x2000, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S16384x256, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S16384x256, .i32⟩
  | .hbm, ⟨58, _⟩ => ⟨S16384x256, .i32⟩
  | .hbm, ⟨59, _⟩ => ⟨S_, .i32⟩
  | .hbm, ⟨60, _⟩ => ⟨S16384x256, .i32⟩
  | .hbm, ⟨61, _⟩ => ⟨S16384x256, .i32⟩
  | .hbm, ⟨62, _⟩ => ⟨S16384, .i32⟩
  | .hbm, ⟨63, _⟩ => ⟨S16384x1, .i32⟩
  | .hbm, ⟨64, _⟩ => ⟨S_, .i32⟩
  | .hbm, ⟨65, _⟩ => ⟨S16384x1, .i32⟩
  | .hbm, ⟨66, _⟩ => ⟨S16384x1, .i32⟩
  | .hbm, ⟨67, _⟩ => ⟨S16384x256, .i32⟩
  | .hbm, ⟨68, _⟩ => ⟨S16384x256, .i32⟩
  | .hbm, ⟨69, _⟩ => ⟨S4194304, .i32⟩
  | .hbm, ⟨70, _⟩ => ⟨S4194304, .f32⟩
  | .hbm, ⟨71, _⟩ => ⟨S_, .f32⟩
  | .hbm, ⟨72, _⟩ => ⟨S32768000, .f32⟩
  | .hbm, ⟨73, _⟩ => ⟨S4194304x1, .i32⟩
  | .hbm, ⟨74, _⟩ => ⟨S32768000, .f32⟩
  | .hbm, ⟨75, _⟩ => ⟨S16384x2000, .f32⟩
  | .hbm, ⟨76, _⟩ => ⟨S16384x2000, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x2000, .f32⟩
  | .hbm, ⟨85, _⟩ => ⟨S16384x2000, .f32⟩
  | .hbm, ⟨86, _⟩ => ⟨S16384x2000, .f32⟩
  | .hbm, ⟨87, _⟩ => ⟨S_, .f32⟩
  | .hbm, ⟨88, _⟩ => ⟨S16384, .f32⟩
  | .hbm, ⟨89, _⟩ => ⟨S16384x2000, .f32⟩
  | .hbm, ⟨90, _⟩ => ⟨S_, .f32⟩
  | .hbm, ⟨91, _⟩ => ⟨S16384, .f32⟩
  | .hbm, ⟨92, _⟩ => ⟨S16384, .f32⟩
  | .hbm, ⟨93, _⟩ => ⟨S16384x2000, .f32⟩
  | .hbm, ⟨94, _⟩ => ⟨S_, .f32⟩
  | .hbm, ⟨95, _⟩ => ⟨S16384, .f32⟩
  | .hbm, ⟨96, _⟩ => ⟨S16384, .f32⟩
  | .hbm, ⟨97, _⟩ => ⟨S_, .f32⟩
  | .hbm, ⟨98, _⟩ => ⟨S16384, .f32⟩
  | .hbm, ⟨99, _⟩ => ⟨S16384, .f32⟩
  | .hbm, ⟨100, _⟩ => ⟨S_, .f32⟩
  | .hbm, ⟨101, _⟩ => ⟨S16384, .f32⟩
  | .hbm, ⟨102, _⟩ => ⟨S16384, .f32⟩
  | .hbm, ⟨103, _⟩ => ⟨S16384, .f32⟩
  | .hbm, ⟨104, _⟩ => ⟨S16384, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_c_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_10 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_v61 : Ref sig .tc := ⟨.hbm, 96, rfl⟩
abbrev main_cst_17 : Ref sig .tc := ⟨.hbm, 97, rfl⟩
abbrev main_v62 : Ref sig .tc := ⟨.hbm, 98, rfl⟩
abbrev main_v63 : Ref sig .tc := ⟨.hbm, 99, rfl⟩
abbrev main_cst_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_cst_20 : Ref sig .tc := ⟨.hbm, 107, rfl⟩
abbrev main_v69 : Ref sig .tc := ⟨.hbm, 108, rfl⟩
abbrev main_cst_21 : Ref sig .tc := ⟨.hbm, 109, rfl⟩
abbrev main_v70 : Ref sig .tc := ⟨.hbm, 110, rfl⟩
abbrev main_cst_22 : Ref sig .tc := ⟨.hbm, 111, rfl⟩
abbrev main_v71 : Ref sig .tc := ⟨.hbm, 112, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  shapeCasts_S16384x256_S4194304 : S16384x256.ShapeCasts S4194304
  bcast_S_S32768000 : S_.BroadcastsInDim S32768000 (![] : Fin 0 → Fin S32768000.rank)
  bcast_S4194304_S4194304x1_0 : S4194304.BroadcastsInDim S4194304x1 (![0] : Fin 1 → Fin S4194304x1.rank)
  shapeCasts_S32768000_S16384x2000 : S32768000.ShapeCasts S16384x2000
  reducesTo_S16384x2000_S16384_d1 : S16384x2000.ReducesTo [1] S16384
  h_S_ : 0 < S_.numel
  bcast_S16384x1_S16384x2000_0_1 : S16384x1.BroadcastsInDim S16384x2000 (![0, 1] : Fin 2 → Fin S16384x2000.rank)
  bcast_S_S16384 : S_.BroadcastsInDim S16384 (![] : Fin 0 → Fin S16384.rank)
  reducesTo_S16384_S_d0 : S16384.ReducesTo [0] S_
  scatter_S32768000_S4194304x1_S4194304_n_0_0_1_wf : ScatterDims.WF S32768000 S4194304x1 S4194304 [] [0] [0] 1

variable [Facts₀]

def scatter_S32768000_S4194304x1_S4194304_n_0_0_1 : ScatterDims S32768000 S4194304x1 S4194304 where
  updateWindowDims := []
  insertedWindowDims := [0]
  scatterDimsToOperandDims := [0]
  indexVectorDim := 1
  wf := scatter_S32768000_S4194304x1_S4194304_n_0_0_1_wf

class Facts : Prop extends Facts₀ where

variable [Facts]
-- ==== Proof.Spec.lean ====
/-
  The mathematics of one row, over the reals.

  A row carries two lists of n weighted peaks. Peak i of the first list has weight u i and falls in bin P i, peak j of the
  second has weight v j and falls in bin Q j; bins are integers in [0, N). The histogram of a list puts in bin k the sum
  of the weights of its peaks that fall there. The inner product of two histograms is a quadratic form in the weights
  through the "same bin" indicator of pairs of peaks:

      Σ_k hist P u k · hist Q v k  =  Σ_i u i · Σ_j 1[P i = Q j] · v j,

  because a pair (i, j) meets exactly one bin k when P i = Q j and none otherwise (and P i is a bin).

  The cosine of the two histograms, each first divided by its norm plus ε and then put through a cosine similarity with
  floor ε, is therefore a function of the three quadratic forms alone: with A = |hp|², B = |ht|², C = ⟨hp, ht⟩,
  a = √A + ε and b = √B + ε (both positive),

      Σ_k (hp k / a)(ht k / b) = C / (a b),      √(Σ_k (hp k / a)²) = √A / a,      √(Σ_k (ht k / b)²) = √B / b.
-/
import Idealize.ShloMosaic.PureOps.Ideal
import Mathlib.Tactic.Ring
import Mathlib.Tactic.Linarith
import Mathlib.Tactic.Positivity

noncomputable section

open scoped BigOperators

namespace Cert.Spec

/-- The histogram of a weighted list of peaks: bin k holds the sum of the weights of the peaks whose bin is k. -/
def hist {n N : ℕ} (P : Fin n → ℤ) (u : Fin n → ℝ) (k : Fin N) : ℝ :=
  ∑ i ∈ Finset.univ.filter (fun i : Fin n => P i = (k.val : ℤ)), u i

/-- The quadratic form of two weighted lists through the "same bin" indicator of pairs of peaks. -/
def quad {n : ℕ} (P Q : Fin n → ℤ) (u v : Fin n → ℝ) : ℝ :=
  ∑ i, u i * ∑ j, (if P i = Q j then (1 : ℝ) else 0) * v j

/-- The cosine from the three quadratic forms A = |hp|², B = |ht|², C = ⟨hp, ht⟩. -/
def cosOfQuads (ε A B C : ℝ) : ℝ :=
  (C / ((Real.sqrt A + ε) * (Real.sqrt B + ε)))
    / (max (Real.sqrt A / (Real.sqrt A + ε)) ε * max (Real.sqrt B / (Real.sqrt B + ε)) ε)

/-- The cosine from the two histograms: normalize each by its norm plus ε, then the cosine similarity with floor ε. -/
def cosOfHists {N : ℕ} (ε : ℝ) (hp ht : Fin N → ℝ) : ℝ :=
  (∑ k, (hp k / (Real.sqrt (∑ l, hp l * hp l) + ε)) * (ht k / (Real.sqrt (∑ l, ht l * ht l) + ε)))
    / (max (Real.sqrt (∑ k, (hp k / (Real.sqrt (∑ l, hp l * hp l) + ε)) * (hp k / (Real.sqrt (∑ l, hp l * hp l) + ε)))) ε
        * max (Real.sqrt (∑ k, (ht k / (Real.sqrt (∑ l, ht l * ht l) + ε)) * (ht k / (Real.sqrt (∑ l, ht l * ht l) + ε)))) ε)

/-- A pair of peaks meets exactly one bin when the two fall in the same bin, and none otherwise. -/
theorem sum_ind_mul_ind {N : ℕ} (p q : ℤ) (a b : ℝ) (hp : 0 ≤ p ∧ p < (N : ℤ)) :
    ∑ k : Fin N, (if p = (k.val : ℤ) then a else 0) * (if q = (k.val : ℤ) then b else 0)
      = a * ((if p = q then 1 else 0) * b) := by
  obtain ⟨h0, h1⟩ := hp
  have hk : p.toNat < N := by omega
  have e : ((⟨p.toNat, hk⟩ : Fin N).val : ℤ) = p := by
    show ((p.toNat : ℕ) : ℤ) = p
    omega
  rw [Finset.sum_eq_single (⟨p.toNat, hk⟩ : Fin N)]
  · rw [e, if_pos rfl]
    by_cases h : p = q
    · rw [if_pos h, if_pos h.symm]; ring
    · rw [if_neg h, if_neg (fun h' => h h'.symm)]; ring
  · intro k _ hne
    have hpk : ¬ p = (k.val : ℤ) := by
      intro h
      apply hne
      apply Fin.ext
      show k.val = p.toNat
      omega
    rw [if_neg hpk, zero_mul]
  · intro h
    exact absurd (Finset.mem_univ _) h

/-- The inner product of two histograms is the quadratic form through the same-bin indicator. -/
theorem sum_hist_mul_hist {n N : ℕ} (P Q : Fin n → ℤ) (u v : Fin n → ℝ) (hP : ∀ i, 0 ≤ P i ∧ P i < (N : ℤ)) :
    ∑ k : Fin N, hist P u k * hist Q v k = quad P Q u v := by
  unfold hist quad
  have h1 : ∀ k : Fin N, (∑ i ∈ Finset.univ.filter (fun i : Fin n => P i = (k.val : ℤ)), u i)
        * (∑ j ∈ Finset.univ.filter (fun j : Fin n => Q j = (k.val : ℤ)), v j)
      = ∑ i, ∑ j, (if P i = (k.val : ℤ) then u i else 0) * (if Q j = (k.val : ℤ) then v j else 0) := by
    intro k
    rw [Finset.sum_filter, Finset.sum_filter, Finset.sum_mul_sum]
  rw [Finset.sum_congr rfl (fun k _ => h1 k), Finset.sum_comm]
  refine Finset.sum_congr rfl (fun i _ => ?_)
  rw [Finset.sum_comm, Finset.mul_sum]
  refine Finset.sum_congr rfl (fun j _ => ?_)
  exact sum_ind_mul_ind (P i) (Q j) (u i) (v j) (hP i)

/-- Dividing both histograms by constants divides their inner product by the product of the constants. -/
theorem sum_div_mul_div {N : ℕ} (hp ht : Fin N → ℝ) (a b : ℝ) :
    ∑ k, (hp k / a) * (ht k / b) = (∑ k, hp k * ht k) / (a * b) := by
  rw [Finset.sum_div]
  refine Finset.sum_congr rfl (fun k _ => ?_)
  rw [div_mul_div_comm]

/-- The norm of a histogram divided by a positive constant is its norm divided by the constant. -/
theorem sqrt_sum_div_sq {N : ℕ} (hp : Fin N → ℝ) {a : ℝ} (ha : 0 < a) :
    Real.sqrt (∑ k, (hp k / a) * (hp k / a)) = Real.sqrt (∑ k, hp k * hp k) / a := by
  rw [sum_div_mul_div, Real.sqrt_div (Finset.sum_nonneg (fun k _ => mul_self_nonneg (hp k))), Real.sqrt_mul_self ha.le]

/-- The cosine of the two normalized histograms is the cosine from the three quadratic forms. -/
theorem cos_eq {n N : ℕ} {ε : ℝ} (hε : 0 < ε) (P Q : Fin n → ℤ) (u v : Fin n → ℝ)
    (hP : ∀ i, 0 ≤ P i ∧ P i < (N : ℤ)) (hQ : ∀ i, 0 ≤ Q i ∧ Q i < (N : ℤ)) :
    cosOfHists (N := N) ε (hist P u) (hist Q v)
      = cosOfQuads ε (quad P P u u) (quad Q Q v v) (quad P Q u v) := by
  unfold cosOfHists cosOfQuads
  have ha : 0 < Real.sqrt (∑ l : Fin N, hist P u l * hist P u l) + ε := by
    have := Real.sqrt_nonneg (∑ l : Fin N, hist P u l * hist P u l); linarith
  have hb : 0 < Real.sqrt (∑ l : Fin N, hist Q v l * hist Q v l) + ε := by
    have := Real.sqrt_nonneg (∑ l : Fin N, hist Q v l * hist Q v l); linarith
  rw [sqrt_sum_div_sq _ ha, sqrt_sum_div_sq _ hb, sum_div_mul_div,
    sum_hist_mul_hist P P u u hP, sum_hist_mul_hist Q Q v v hQ, sum_hist_mul_hist P Q u v hP]

/-- The first quadratic form of a list with itself is a sum of squares, so it is not negative. -/
theorem quad_self_nonneg {n : ℕ} (N : ℕ) (P : Fin n → ℤ) (u : Fin n → ℝ) (hP : ∀ i, 0 ≤ P i ∧ P i < (N : ℤ)) :
    0 ≤ quad P P u u := by
  rw [← sum_hist_mul_hist (N := N) P P u u hP]
  exact Finset.sum_nonneg (fun k _ => mul_self_nonneg _)

end Cert.Spec

end
-- ==== Proof.Consts.lean ====
/-
  The three float constants the two programs spell, as the extended reals their patterns denote: zero, one, and the
  small positive floor ε = 11258999 / 2^50 (the single-precision number nearest to 10⁻⁸).
-/
import Idealize.ShloMosaic.PureOps.Ideal

noncomputable section

namespace Cert.Consts

open Idealize.ShloMosaic

/-- The floor ε as a real number. -/
def epsR : ℝ := 11258999 / 2 ^ 50

theorem epsR_pos : 0 < epsR := by unfold epsR; positivity

/-- The pattern of ε denotes that real. -/
theorem ofBits_eps : Ideal.ofBits .f32 0x322BCC77#32 = ((epsR : ℝ) : EReal) := by
  simp [Ideal.ofBits, Ideal.ieee, -EReal.coe_mul, epsR]; norm_num

/-- The pattern of 1.0 denotes the real one. -/
theorem ofBits_one : Ideal.ofBits .f32 0x3F800000#32 = ((1 : ℝ) : EReal) := by
  simp [Ideal.ofBits, Ideal.ieee, -EReal.coe_mul]; norm_num

/-- The pattern of +0.0 denotes zero. -/
theorem ofBits_zero : Ideal.ofBits .f32 0x00000000#32 = 0 := by
  simp [Ideal.ofBits, Ideal.ieee]

end Cert.Consts

end
-- ==== Proof.IdealReal.lean ====
/-
  The exact operations on extended reals, read at real numbers: a finite sum of reals, a quotient by a nonzero real,
  the square root of a real that is not negative, and a quotient by one. Then the two integer facts of a peak's bin:
  the bin word (the product with the scale, truncated to a signed word and clamped to [0, 1999]) reads a number in
  [0, 2000); and the "same bin" test of two words, widened and converted to a float, is one when the two words read the
  same number and zero otherwise.
-/
import Idealize.ShloMosaic.PureOps.Ideal
import Idealize.ShloMosaic.Lib.StableHlo.Predicate

noncomputable section

open scoped BigOperators

namespace Cert.IdealReal

open Idealize.ShloMosaic

/-- The inclusion of the reals in the extended reals carries finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_real (x : ℝ) {y : ℝ} (hy : y ≠ 0) : Ideal.div (x : EReal) (y : EReal) = ((x / y : ℝ) : EReal) := by
  rw [Ideal.div_coe hy, ← EReal.coe_mul, mul_one_div]

/-- The square root of a real that is not negative is the real square root. -/
theorem sqrt_real {r : ℝ} (h : 0 ≤ r) : Ideal.sqrt (r : EReal) = ((Real.sqrt r : ℝ) : EReal) := by
  rw [Ideal.sqrt_coe, if_neg (not_lt.mpr h)]

/-- A quotient by one is the dividend, at the infinities too. -/
theorem div_one (x : EReal) : Ideal.div x ((1 : ℝ) : EReal) = x := by
  rw [Ideal.div_coe one_ne_zero, div_self one_ne_zero, EReal.coe_one, mul_one]

/-- The bin word of an m/z value: the product with the scale 2000 (its pattern kept as it is: both programs spell the
    same one), truncated toward zero to a signed 32-bit word, then clamped below at 0 and above at 1999. -/
def binW (x : EReal) : BitVec 32 :=
  IntOp.minsi 1999#32 (IntOp.maxsi 0#32 (Ideal.fptosi 32 (x * Ideal.ofBits .f32 0x44FA0000#32)))

/-- The bin as an integer. -/
def binZ (x : EReal) : ℤ := (binW x).toInt

/-- A clamped word reads a number in [0, 2000). -/
theorem clamp_range (y : BitVec 32) :
    0 ≤ (IntOp.minsi 1999#32 (IntOp.maxsi 0#32 y)).toInt ∧ (IntOp.minsi 1999#32 (IntOp.maxsi 0#32 y)).toInt < 2000 := by
  have h0 : (0#32 : BitVec 32).toInt = 0 := by decide
  have h1 : (1999#32 : BitVec 32).toInt = 1999 := by decide
  unfold IntOp.minsi IntOp.maxsi
  simp only [BitVec.slt, h0, h1]
  split_ifs with a b b <;> simp only [decide_eq_true_eq, not_lt] at * <;> omega

/-- The bin is a number in [0, 2000). -/
theorem binZ_range (x : EReal) : 0 ≤ binZ x ∧ binZ x < ((2000 : ℕ) : ℤ) := by
  have := clamp_range (Ideal.fptosi 32 (x * Ideal.ofBits .f32 0x44FA0000#32))
  exact ⟨this.1, by exact_mod_cast this.2⟩

/-- The same-bin test of two words, widened to 32 bits and converted to a float, is one when the two words read the
    same number and zero otherwise. -/
theorem same_bin_real (a b : BitVec 32) :
    ((((IntOp.cmpi .eq a b).setWidth 32).toInt : ℝ) : EReal) = (((if a.toInt = b.toInt then (1 : ℝ) else 0) : ℝ) : EReal) := by
  by_cases h : a = b
  · subst h
    have : IntOp.cmpi .eq a a = 1#1 := StableHlo.Predicate.cmpi_eq_iff.mpr rfl
    rw [this, if_pos rfl]
    have : ((1#1 : BitVec 1).setWidth 32).toInt = 1 := by decide
    rw [this]; norm_num
  · have hne : IntOp.cmpi .eq a b ≠ 1#1 := fun h' => h (StableHlo.Predicate.cmpi_eq_iff.mp h')
    have hz : IntOp.cmpi .eq a b = 0#1 := by
      have := (IntOp.cmpi .eq a b)
      rcases (by decide : ∀ c : BitVec 1, c = 0#1 ∨ c = 1#1) (IntOp.cmpi .eq a b) with h0 | h1
      · exact h0
      · exact absurd h1 hne
    have hi : ¬ a.toInt = b.toInt := fun h' => h (BitVec.toInt_inj.mp h')
    rw [hz, if_neg hi]
    have : ((0#1 : BitVec 1).setWidth 32).toInt = 0 := by decide
    rw [this]; norm_num

end Cert.IdealReal

end
-- ==== Proof.KernelRow.lean ====
/-
  One row of the kernel's block, over the reals.

  The body's one store writes, for each of the 32 rows of a block, the cosine computed from the three quadratic forms of
  that row's two weighted peak lists through the same-bin indicator: the predicted list with itself, the target list
  with itself, and the predicted list against the target list. The weights are products of two input entries (finite,
  hence reals); a peak's bin is the bin word of its m/z entry.
-/
import proofs.«120781_j54434415509810_1_alg».proof.Proof.Gen.KernelIdeal.Skeleton
import proofs.«120781_j54434415509810_1_alg».proof.Proof.Spec
import proofs.«120781_j54434415509810_1_alg».proof.Proof.Consts
import proofs.«120781_j54434415509810_1_alg».proof.Proof.IdealReal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

open scoped BigOperators

namespace Cert.KernelRow

open Idealize.ShloMosaic Idealize.ShloMosaic.ValueIdx Cert.KernelIdeal Cert.KernelIdeal.Gen

/-! ## Reading the layout operations at an index

A shape cast keeps the row-major position; adding or dropping an axis of extent one therefore keeps the other
coordinates. A broadcast along an axis of extent one reads the operand at coordinate zero of that axis. -/

section Layout
variable {α : Type}

/-- A trailing unit axis added: entry (r, i, 0) of the cast is entry (r, i). -/
theorem cast_col (x : S32x256.Idx → α) (h : S32x256.ShapeCasts S32x256x1) (r : Fin 32) (i : Fin 256) :
    shapeCast S32x256x1 x h (ix3 r i (0 : Fin 1)) = x (ix2 r i) :=
  shapeCast_apply x h (ix3 r i (0 : Fin 1)) (ix2 r i) (by
    rw [Shape.rowMajor_val_three, Shape.rowMajor_val_two]
    show r.val * 256 + i.val = (r.val * 256 + i.val) * 1 + 0
    omega)

/-- A middle unit axis added: entry (r, 0, j) of the cast is entry (r, j). -/
theorem cast_row (x : S32x256.Idx → α) (h : S32x256.ShapeCasts S32x1x256) (r : Fin 32) (j : Fin 256) :
    shapeCast S32x1x256 x h (ix3 r (0 : Fin 1) j) = x (ix2 r j) :=
  shapeCast_apply x h (ix3 r (0 : Fin 1) j) (ix2 r j) (by
    rw [Shape.rowMajor_val_three, Shape.rowMajor_val_two]
    show r.val * 256 + j.val = (r.val * 1 + 0) * 256 + j.val
    omega)

/-- A trailing unit axis dropped: entry (r, i) of the cast is entry (r, i, 0). -/
theorem cast_uncol (y : S32x256x1.Idx → α) (h : S32x256x1.ShapeCasts S32x256) (r : Fin 32) (i : Fin 256) :
    shapeCast S32x256 y h (ix2 r i) = y (ix3 r i (0 : Fin 1)) :=
  shapeCast_apply y h (ix2 r i) (ix3 r i (0 : Fin 1)) (by
    rw [Shape.rowMajor_val_three, Shape.rowMajor_val_two]
    show (r.val * 256 + i.val) * 1 + 0 = r.val * 256 + i.val
    omega)

/-- A vector made a one-column matrix: entry (r, 0) of the cast is entry r. -/
theorem cast_keep (z : S32.Idx → α) (h : S32.ShapeCasts S32x1) (r : Fin 32) :
    shapeCast S32x1 z h (ix2 r (0 : Fin 1)) = z (ix1 r) :=
  shapeCast_apply z h (ix2 r (0 : Fin 1)) (ix1 r) (by
    rw [Shape.rowMajor_val_two, Shape.rowMajor_val_one]
    show r.val = r.val * 1 + 0
    omega)

/-- A column copied along the last axis: entry (r, i, j) is the column's entry (r, i, 0). -/
theorem bcast_col (v : S32x256x1.Idx → α) (h : S32x256x1.Broadcasts S32x256x256) (r : Fin 32) (i j : Fin 256) :
    broadcastTo S32x256x256 v h (ix3 r i j) = v (ix3 r i (0 : Fin 1)) :=
  broadcastTo_apply v h (ix3 r i j) (ix3 r i (0 : Fin 1)) (fun a => by
    match a with
    | ⟨0, _⟩ => rfl
    | ⟨1, _⟩ => rfl
    | ⟨2, _⟩ => rfl)

/-- A row copied along the middle axis: entry (r, i, j) is the row's entry (r, 0, j). -/
theorem bcast_row (v : S32x1x256.Idx → α) (h : S32x1x256.Broadcasts S32x256x256) (r : Fin 32) (i j : Fin 256) :
    broadcastTo S32x256x256 v h (ix3 r i j) = v (ix3 r (0 : Fin 1) j) :=
  broadcastTo_apply v h (ix3 r i j) (ix3 r (0 : Fin 1) j) (fun a => by
    match a with
    | ⟨0, _⟩ => rfl
    | ⟨1, _⟩ => rfl
    | ⟨2, _⟩ => rfl)

end Layout

/-! ## The lane sum and the batched product at an index -/

/-- The sum over the lanes of a 32 × 256 block, at row r: the sum of the row's 256 entries. -/
theorem lane_sum (src : FVec Ideal S32x256 .f32) (h : S32x256.Reduces [1] S32) (hφ : FKind.Formats .f32)
    (hacc : (0x00000000#32 : BitVec 32) = FKind.add.neutral .f32 hφ) (r : Fin 32) :
    multiReduction (F := Ideal) .add [1] S32 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The product of a stack of 32 matrices (256 × 256) with a stack of 32 columns (256 × 1), accumulated into zero, at
    entry (r, i, 0): the sum over j of the matrix entry (r, i, j) times the column entry (r, j, 0). -/
theorem stack_matvec {φ₁ φ₂ : FTy} (lhs : FVec Ideal S32x256x256 φ₁) (rhs : FVec Ideal S32x256x1 φ₂) (r : Fin 32) (i : Fin 256) :
    matmul (F := Ideal) dot_S32x256x256_S32x256x1_S32x256x1_2_1_1_2_0_0 none lhs rhs (constant (F := Ideal) S32x256x1 .f32 0x00000000#32)
        (ix3 r i (0 : Fin 1))
      = ∑ j : Fin 256, lhs (ix3 r i j) * rhs (ix3 r j (0 : Fin 1)) := by
  refine (Ideal.matmul_constant_zero_apply _ none lhs rhs (ix3 r i (0 : Fin 1))).trans ?_
  refine (Ideal.dotGeneral_apply dot_S32x256x256_S32x256x1_S32x256x1_2_1_1_2_0_0 none default lhs rhs (ix3 r i (0 : Fin 1))).symm.trans ?_
  exact StackMember.dotGeneral_stack_apply Facts₀.dot_S32x256x256_S32x256x1_S32x256x1_2_1_1_2_0_0_wf none lhs rhs r i (0 : Fin 1)

/-! ## One quadratic form -/

/-- The same-bin matrix of a row, entry (i, j): one when word i of the first block's row and word j of the second block's
    row are the same integer, zero otherwise. -/
theorem ind_entry (A B : IVec S32x256 32) (r : Fin 32) (i j : Fin 256) :
    (truncf (F := Ideal) .bf16
        (sitofp .f32 (extui 32 (cmpi .eq
          (broadcastTo S32x256x256 (shapeCast S32x256x1 A Facts₀.shapeCasts_S32x256_S32x256x1) Facts₀.broadcasts_S32x256x1_S32x256x256)
          (broadcastTo S32x256x256 (shapeCast S32x1x256 B Facts₀.shapeCasts_S32x256_S32x1x256) Facts₀.broadcasts_S32x1x256_S32x256x256))
          Facts₀.natLt_1_32))
        Facts₀.bitsLt_bf16_f32) (ix3 r i j)
      = (((if (A (ix2 r i)).toInt = (B (ix2 r j)).toInt then (1 : ℝ) else 0 : ℝ)) : EReal) := by
  have e1 := bcast_col (shapeCast S32x256x1 A Facts₀.shapeCasts_S32x256_S32x256x1) Facts₀.broadcasts_S32x256x1_S32x256x256 r i j
  have e2 := bcast_row (shapeCast S32x1x256 B Facts₀.shapeCasts_S32x256_S32x1x256) Facts₀.broadcasts_S32x1x256_S32x256x256 r i j
  rw [cast_col] at e1
  rw [cast_row] at e2
  show ((((IntOp.cmpi .eq
      (broadcastTo S32x256x256 (shapeCast S32x256x1 A Facts₀.shapeCasts_S32x256_S32x256x1) Facts₀.broadcasts_S32x256x1_S32x256x256 (ix3 r i j))
      (broadcastTo S32x256x256 (shapeCast S32x1x256 B Facts₀.shapeCasts_S32x256_S32x1x256) Facts₀.broadcasts_S32x1x256_S32x256x256 (ix3 r i j))).setWidth 32).toInt : ℝ) : EReal) = _
  rw [e1, e2]
  exact IdealReal.same_bin_real _ _

/-- A quadratic form through the same-bin matrix, as the body computes it from two blocks of bin words and two blocks
    of weights: per row, the left weights times the matrix applied to the right weights, summed over the row. -/
def quadOf (A B : IVec S32x256 32) (wl wr : FVec Ideal S32x256 .f32) : FVec Ideal S32x1 .f32 :=
  shapeCast S32x1
    (multiReduction (F := Ideal) .add [1] S32
      (mulf wl (shapeCast S32x256
        (matmul (F := Ideal) dot_S32x256x256_S32x256x1_S32x256x1_2_1_1_2_0_0 none
          (truncf .bf16
            (sitofp .f32 (extui 32 (cmpi .eq
              (broadcastTo S32x256x256 (shapeCast S32x256x1 A Facts₀.shapeCasts_S32x256_S32x256x1) Facts₀.broadcasts_S32x256x1_S32x256x256)
              (broadcastTo S32x256x256 (shapeCast S32x1x256 B Facts₀.shapeCasts_S32x256_S32x1x256) Facts₀.broadcasts_S32x1x256_S32x256x256))
              Facts₀.natLt_1_32))
            Facts₀.bitsLt_bf16_f32)
          (shapeCast S32x256x1 (truncf .bf16 wr Facts₀.bitsLt_bf16_f32) Facts₀.shapeCasts_S32x256_S32x256x1)
          (constant (F := Ideal) S32x256x1 .f32 0x00000000#32))
        Facts₀.shapeCasts_S32x256x1_S32x256))
      0x00000000#32 Facts₀.reduces_S32x256_S32 (.inl rfl) rfl)
    Facts₀.shapeCasts_S32_S32x1

/-- With real weights the body's quadratic form at row r is the real quadratic form of the row's words and weights. -/
theorem quad_form (A B : IVec S32x256 32) (wl wr : FVec Ideal S32x256 .f32) (al ar : S32x256.Idx → ℝ)
    (hl : wl = fun i => ((al i : ℝ) : EReal)) (hr : wr = fun i => ((ar i : ℝ) : EReal)) (r : Fin 32) :
    quadOf A B wl wr (ix2 r (0 : Fin 1))
      = ((Spec.quad (fun i : Fin 256 => (A (ix2 r i)).toInt) (fun j : Fin 256 => (B (ix2 r j)).toInt)
          (fun i : Fin 256 => al (ix2 r i)) (fun j : Fin 256 => ar (ix2 r j)) : ℝ) : EReal) := by
  unfold quadOf
  refine (cast_keep _ _ r).trans ?_
  refine (lane_sum _ _ _ _ r).trans ?_
  unfold Spec.quad
  rw [IdealReal.coe_sum]
  refine Finset.sum_congr rfl fun i _ => ?_
  rw [EReal.coe_mul, IdealReal.coe_sum]
  refine (mulf_apply _ _ _).trans ?_
  refine congrArg₂ (· * ·) (by rw [hl]) ?_
  refine (cast_uncol _ _ r i).trans ?_
  refine (stack_matvec _ _ r i).trans ?_
  refine Finset.sum_congr rfl fun j _ => ?_
  rw [EReal.coe_mul]
  refine congrArg₂ (· * ·) (ind_entry A B r i j) ?_
  refine (cast_col _ _ r j).trans ?_
  show wr (ix2 r j) = _
  rw [hr]

/-! ## The scalar chain -/

/-- The coercion of the reals into the extended reals keeps the larger of two. -/
theorem coe_max (x y : ℝ) : ((max x y : ℝ) : EReal) = max (x : EReal) (y : EReal) :=
  EReal.coe_strictMono.monotone.map_max

/-- The chain from the three quadratic forms to the cosine, on reals: every square root is of a number that is not
    negative and every divisor is positive (a square root plus ε, or a maximum with ε), so each step is the real one. -/
theorem chain {ε A B C : ℝ} (hε : 0 < ε) (hA : 0 ≤ A) (hB : 0 ≤ B) :
    Ideal.div
        (Ideal.div (C : EReal) ((Ideal.sqrt (A : EReal) + (ε : EReal)) * (Ideal.sqrt (B : EReal) + (ε : EReal))))
        (max (Ideal.div (Ideal.sqrt (A : EReal)) (Ideal.sqrt (A : EReal) + (ε : EReal))) (ε : EReal)
          * max (Ideal.div (Ideal.sqrt (B : EReal)) (Ideal.sqrt (B : EReal) + (ε : EReal))) (ε : EReal))
      = ((Spec.cosOfQuads ε A B C : ℝ) : EReal) := by
  have hsA : 0 ≤ Real.sqrt A := Real.sqrt_nonneg A
  have hsB : 0 ≤ Real.sqrt B := Real.sqrt_nonneg B
  have h1 : Real.sqrt A + ε ≠ 0 := by linarith
  have h2 : Real.sqrt B + ε ≠ 0 := by linarith
  have hm1 : 0 < max (Real.sqrt A / (Real.sqrt A + ε)) ε := lt_max_of_lt_right hε
  have hm2 : 0 < max (Real.sqrt B / (Real.sqrt B + ε)) ε := lt_max_of_lt_right hε
  rw [IdealReal.sqrt_real hA, IdealReal.sqrt_real hB, ← EReal.coe_add, ← EReal.coe_add, ← EReal.coe_mul,
    IdealReal.div_real _ (mul_ne_zero h1 h2), IdealReal.div_real _ h1, IdealReal.div_real _ h2, ← coe_max, ← coe_max,
    ← EReal.coe_mul, IdealReal.div_real _ (mul_pos hm1 hm2).ne']
  rfl

/-! ## The stored value -/

/-- The body's stored value at row r of a block, from the six input blocks: the cosine from the row's three quadratic
    forms. The four weight blocks hold reals (a1, a2 for the predicted list, a4, a5 for the target list). -/
theorem pay_row (x0 x1 x2 x3 x4 x5 : Vec Ideal S32x256 .f32) (a1 a2 a4 a5 : S32x256.Idx → ℝ)
    (h1 : x1 = fun i => ((a1 i : ℝ) : EReal)) (h2 : x2 = fun i => ((a2 i : ℝ) : EReal))
    (h4 : x4 = fun i => ((a4 i : ℝ) : EReal)) (h5 : x5 = fun i => ((a5 i : ℝ) : EReal)) (r : Fin 32) :
    k0_pay7 (F := Ideal) (k0_pay1 x1 x2) (k0_pay2 x4 x5) (k0_pay3 x0) (k0_pay4 x3) (k0_pay5 x4 x5) (k0_pay6 x0 x1 x2)
        (ix2 r (0 : Fin 1))
      = ((Spec.cosOfQuads Consts.epsR
          (Spec.quad (fun i : Fin 256 => IdealReal.binZ (x0 (ix2 r i))) (fun i : Fin 256 => IdealReal.binZ (x0 (ix2 r i)))
            (fun i : Fin 256 => a1 (ix2 r i) * a2 (ix2 r i)) (fun i : Fin 256 => a1 (ix2 r i) * a2 (ix2 r i)))
          (Spec.quad (fun i : Fin 256 => IdealReal.binZ (x3 (ix2 r i))) (fun i : Fin 256 => IdealReal.binZ (x3 (ix2 r i)))
            (fun i : Fin 256 => a4 (ix2 r i) * a5 (ix2 r i)) (fun i : Fin 256 => a4 (ix2 r i) * a5 (ix2 r i)))
          (Spec.quad (fun i : Fin 256 => IdealReal.binZ (x0 (ix2 r i))) (fun i : Fin 256 => IdealReal.binZ (x3 (ix2 r i)))
            (fun i : Fin 256 => a1 (ix2 r i) * a2 (ix2 r i)) (fun i : Fin 256 => a4 (ix2 r i) * a5 (ix2 r i))) : ℝ) : EReal) := by
  -- the two weight blocks are blocks of reals: the products of the entries
  have hw1 : k0_pay1 (F := Ideal) x1 x2 = fun i => ((a1 i * a2 i : ℝ) : EReal) := by
    subst h1 h2; funext i; exact (EReal.coe_mul _ _).symm
  have hw2 : k0_pay2 (F := Ideal) x4 x5 = fun i => ((a4 i * a5 i : ℝ) : EReal) := by
    subst h4 h5; funext i; exact (EReal.coe_mul _ _).symm
  -- the three quadratic forms; a bin word read as an integer is the bin
  have qA : quadOf (k0_pay3 x0) (k0_pay3 x0) (k0_pay1 x1 x2) (k0_pay1 x1 x2) (ix2 r (0 : Fin 1))
      = ((Spec.quad (fun i : Fin 256 => IdealReal.binZ (x0 (ix2 r i))) (fun i : Fin 256 => IdealReal.binZ (x0 (ix2 r i)))
          (fun i : Fin 256 => a1 (ix2 r i) * a2 (ix2 r i)) (fun i : Fin 256 => a1 (ix2 r i) * a2 (ix2 r i)) : ℝ) : EReal) :=
    quad_form (k0_pay3 x0) (k0_pay3 x0) (k0_pay1 x1 x2) (k0_pay1 x1 x2) _ _ hw1 hw1 r
  have qB : quadOf (k0_pay4 x3) (k0_pay4 x3) (k0_pay2 x4 x5) (k0_pay2 x4 x5) (ix2 r (0 : Fin 1))
      = ((Spec.quad (fun i : Fin 256 => IdealReal.binZ (x3 (ix2 r i))) (fun i : Fin 256 => IdealReal.binZ (x3 (ix2 r i)))
          (fun i : Fin 256 => a4 (ix2 r i) * a5 (ix2 r i)) (fun i : Fin 256 => a4 (ix2 r i) * a5 (ix2 r i)) : ℝ) : EReal) :=
    quad_form (k0_pay4 x3) (k0_pay4 x3) (k0_pay2 x4 x5) (k0_pay2 x4 x5) _ _ hw2 hw2 r
  have qC : quadOf (k0_pay3 x0) (k0_pay4 x3) (k0_pay1 x1 x2) (k0_pay2 x4 x5) (ix2 r (0 : Fin 1))
      = ((Spec.quad (fun i : Fin 256 => IdealReal.binZ (x0 (ix2 r i))) (fun i : Fin 256 => IdealReal.binZ (x3 (ix2 r i)))
          (fun i : Fin 256 => a1 (ix2 r i) * a2 (ix2 r i)) (fun i : Fin 256 => a4 (ix2 r i) * a5 (ix2 r i)) : ℝ) : EReal) :=
    quad_form (k0_pay3 x0) (k0_pay4 x3) (k0_pay1 x1 x2) (k0_pay2 x4 x5) _ _ hw1 hw2 r
  -- a form of a list with itself is not negative: every bin lies in [0, 2000)
  have hA := Spec.quad_self_nonneg 2000 (fun i : Fin 256 => IdealReal.binZ (x0 (ix2 r i)))
    (fun i : Fin 256 => a1 (ix2 r i) * a2 (ix2 r i)) (fun i => IdealReal.binZ_range _)
  have hB := Spec.quad_self_nonneg 2000 (fun i : Fin 256 => IdealReal.binZ (x3 (ix2 r i)))
    (fun i : Fin 256 => a4 (ix2 r i) * a5 (ix2 r i)) (fun i => IdealReal.binZ_range _)
  -- the stored value at the row, written over the three forms
  show Ideal.div
      (Ideal.div (quadOf (k0_pay3 x0) (k0_pay4 x3) (k0_pay1 x1 x2) (k0_pay2 x4 x5) (ix2 r (0 : Fin 1)))
        ((Ideal.sqrt (quadOf (k0_pay3 x0) (k0_pay3 x0) (k0_pay1 x1 x2) (k0_pay1 x1 x2) (ix2 r (0 : Fin 1))) + Ideal.ofBits .f32 0x322BCC77#32)
          * (Ideal.sqrt (quadOf (k0_pay4 x3) (k0_pay4 x3) (k0_pay2 x4 x5) (k0_pay2 x4 x5) (ix2 r (0 : Fin 1))) + Ideal.ofBits .f32 0x322BCC77#32)))
      (max (Ideal.div (Ideal.sqrt (quadOf (k0_pay3 x0) (k0_pay3 x0) (k0_pay1 x1 x2) (k0_pay1 x1 x2) (ix2 r (0 : Fin 1))))
            (Ideal.sqrt (quadOf (k0_pay3 x0) (k0_pay3 x0) (k0_pay1 x1 x2) (k0_pay1 x1 x2) (ix2 r (0 : Fin 1))) + Ideal.ofBits .f32 0x322BCC77#32))
          (Ideal.ofBits .f32 0x322BCC77#32)
        * max (Ideal.div (Ideal.sqrt (quadOf (k0_pay4 x3) (k0_pay4 x3) (k0_pay2 x4 x5) (k0_pay2 x4 x5) (ix2 r (0 : Fin 1))))
            (Ideal.sqrt (quadOf (k0_pay4 x3) (k0_pay4 x3) (k0_pay2 x4 x5) (k0_pay2 x4 x5) (ix2 r (0 : Fin 1))) + Ideal.ofBits .f32 0x322BCC77#32))
          (Ideal.ofBits .f32 0x322BCC77#32))
    = _
  rw [qA, qB, qC, Consts.ofBits_eps]
  exact chain Consts.epsR_pos hA hB

end Cert.KernelRow

end
-- ==== Proof.KernelArray.lean ====
/-
  The kernel's output array and its result, from the rows.

  The grid has 512 points; point t stages rows 32 t … 32 t + 31 of each of the six input arrays (all 256 columns) and
  writes back rows 32 t … 32 t + 31 of the 16384 × 1 output. So entry (r, i) of an input block at point t is entry
  (32 t + r, i) of its array, the 512 output blocks tile the output, and output row b holds the cosine of row b of the
  inputs. The host lines after the region reshape the output to a vector, sum it, divide by 16384, subtract from one and
  multiply by one.
-/
import proofs.«120781_j54434415509810_1_alg».proof.Proof.Gen.KernelIdeal.Frame
import proofs.«120781_j54434415509810_1_alg».proof.Proof.KernelRow
import Idealize.ShloMosaic.Lib.Pipeline.Value
import Idealize.ShloMosaic.Lib.StableHlo.Run

set_option maxRecDepth 16384

noncomputable section

open scoped BigOperators

namespace Cert.KernelArray

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The cosine of row b of the six input arrays, as a real: the bins from the two m/z arrays, the weights the products
    of the intensity arrays with the confidence and the mask. -/
def cosRow (x0 x3 : S16384x256.Idx → EReal) (a1 a2 a4 a5 : S16384x256.Idx → ℝ) (b : Fin 16384) : ℝ :=
  Spec.cosOfQuads Consts.epsR
    (Spec.quad (fun i : Fin 256 => IdealReal.binZ (x0 (ix2 b i))) (fun i : Fin 256 => IdealReal.binZ (x0 (ix2 b i)))
      (fun i : Fin 256 => a1 (ix2 b i) * a2 (ix2 b i)) (fun i : Fin 256 => a1 (ix2 b i) * a2 (ix2 b i)))
    (Spec.quad (fun i : Fin 256 => IdealReal.binZ (x3 (ix2 b i))) (fun i : Fin 256 => IdealReal.binZ (x3 (ix2 b i)))
      (fun i : Fin 256 => a4 (ix2 b i) * a5 (ix2 b i)) (fun i : Fin 256 => a4 (ix2 b i) * a5 (ix2 b i)))
    (Spec.quad (fun i : Fin 256 => IdealReal.binZ (x0 (ix2 b i))) (fun i : Fin 256 => IdealReal.binZ (x3 (ix2 b i)))
      (fun i : Fin 256 => a1 (ix2 b i) * a2 (ix2 b i)) (fun i : Fin 256 => a4 (ix2 b i) * a5 (ix2 b i)))

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: at point t every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row r of the block at point t is row 32 t + r of the array. -/
def row (t : Fin cfg0.N) (r : Fin 32) : Fin 16384 :=
  ⟨32 * t.val + r.val, by have h : t.val < 512 := t.isLt; have := r.isLt; omega⟩

/-- Entry (r, i) of input window 0's block at point t is entry (32 t + r, i) of its array. -/
theorem blk0 (c : Dev nD) (t : Fin cfg0.N) (r : Fin 32) (i : Fin 256) :
    iblk m c 0 t (ix2 r i) = m ((c : Thread nD τ).loc main_arg0) (ix2 (row t r) i) := by
  obtain ⟨e0, e1, -⟩ := idx_facts t
  show V m c main_arg0 (((cfg0.win 0).blk t).view.emb (ix2 r i)) = _
  rw [V_main_arg0]
  refine congrArg _ ?_
  funext a; apply Fin.ext
  match a with
  | ⟨0, _⟩ => show win0_0.index t (0 : Fin 2) * 32 + 1 * r.val = 32 * t.val + r.val; omega
  | ⟨1, _⟩ => show win0_0.index t (1 : Fin 2) * 256 + 1 * i.val = i.val; omega

/-- Entry (r, i) of input window 1's block at point t is entry (32 t + r, i) of its array. -/
theorem blk1 (c : Dev nD) (t : Fin cfg0.N) (r : Fin 32) (i : Fin 256) :
    iblk m c 1 t (ix2 r i) = m ((c : Thread nD τ).loc main_arg1) (ix2 (row t r) i) := by
  obtain ⟨-, -, e0, e1, -⟩ := idx_facts t
  show V m c main_arg1 (((cfg0.win 1).blk t).view.emb (ix2 r i)) = _
  rw [V_main_arg1]
  refine congrArg _ ?_
  funext a; apply Fin.ext
  match a with
  | ⟨0, _⟩ => show win0_1.index t (0 : Fin 2) * 32 + 1 * r.val = 32 * t.val + r.val; omega
  | ⟨1, _⟩ => show win0_1.index t (1 : Fin 2) * 256 + 1 * i.val = i.val; omega

/-- Entry (r, i) of input window 2's block at point t is entry (32 t + r, i) of its array. -/
theorem blk2 (c : Dev nD) (t : Fin cfg0.N) (r : Fin 32) (i : Fin 256) :
    iblk m c 2 t (ix2 r i) = m ((c : Thread nD τ).loc main_arg2) (ix2 (row t r) i) := by
  obtain ⟨-, -, -, -, e0, e1, -⟩ := idx_facts t
  show V m c main_arg2 (((cfg0.win 2).blk t).view.emb (ix2 r i)) = _
  rw [V_main_arg2]
  refine congrArg _ ?_
  funext a; apply Fin.ext
  match a with
  | ⟨0, _⟩ => show win0_2.index t (0 : Fin 2) * 32 + 1 * r.val = 32 * t.val + r.val; omega
  | ⟨1, _⟩ => show win0_2.index t (1 : Fin 2) * 256 + 1 * i.val = i.val; omega

/-- Entry (r, i) of input window 3's block at point t is entry (32 t + r, i) of its array. -/
theorem blk3 (c : Dev nD) (t : Fin cfg0.N) (r : Fin 32) (i : Fin 256) :
    iblk m c 3 t (ix2 r i) = m ((c : Thread nD τ).loc main_arg3) (ix2 (row t r) i) := by
  obtain ⟨-, -, -, -, -, -, e0, e1, -⟩ := idx_facts t
  show V m c main_arg3 (((cfg0.win 3).blk t).view.emb (ix2 r i)) = _
  rw [V_main_arg3]
  refine congrArg _ ?_
  funext a; apply Fin.ext
  match a with
  | ⟨0, _⟩ => show win0_3.index t (0 : Fin 2) * 32 + 1 * r.val = 32 * t.val + r.val; omega
  | ⟨1, _⟩ => show win0_3.index t (1 : Fin 2) * 256 + 1 * i.val = i.val; omega

/-- Entry (r, i) of input window 4's block at point t is entry (32 t + r, i) of its array. -/
theorem blk4 (c : Dev nD) (t : Fin cfg0.N) (r : Fin 32) (i : Fin 256) :
    iblk m c 4 t (ix2 r i) = m ((c : Thread nD τ).loc main_arg4) (ix2 (row t r) i) := by
  obtain ⟨-, -, -, -, -, -, -, -, e0, e1, -⟩ := idx_facts t
  show V m c main_arg4 (((cfg0.win 4).blk t).view.emb (ix2 r i)) = _
  rw [V_main_arg4]
  refine congrArg _ ?_
  funext a; apply Fin.ext
  match a with
  | ⟨0, _⟩ => show win0_4.index t (0 : Fin 2) * 32 + 1 * r.val = 32 * t.val + r.val; omega
  | ⟨1, _⟩ => show win0_4.index t (1 : Fin 2) * 256 + 1 * i.val = i.val; omega

/-- Entry (r, i) of input window 5's block at point t is entry (32 t + r, i) of its array. -/
theorem blk5 (c : Dev nD) (t : Fin cfg0.N) (r : Fin 32) (i : Fin 256) :
    iblk m c 5 t (ix2 r i) = m ((c : Thread nD τ).loc main_arg5) (ix2 (row t r) i) := by
  obtain ⟨-, -, -, -, -, -, -, -, -, -, e0, e1, -⟩ := idx_facts t
  show V m c main_arg5 (((cfg0.win 5).blk t).view.emb (ix2 r i)) = _
  rw [V_main_arg5]
  refine congrArg _ ?_
  funext a; apply Fin.ext
  match a with
  | ⟨0, _⟩ => show win0_5.index t (0 : Fin 2) * 32 + 1 * r.val = 32 * t.val + r.val; omega
  | ⟨1, _⟩ => show win0_5.index t (1 : Fin 2) * 256 + 1 * i.val = i.val; omega

/-- Entry (r, 0) of the output window's block at point t is entry (32 t + r, 0) of the output array. -/
theorem emb6 (t : Fin cfg0.N) (r : Fin 32) :
    ((cfg0.win 6).blk t).view.emb (ix2 r (0 : Fin 1)) = ix2 (row t r) (0 : Fin 1) := by
  obtain ⟨-, -, -, -, -, -, -, -, -, -, -, -, e0, e1⟩ := idx_facts t
  funext a; apply Fin.ext
  match a with
  | ⟨0, _⟩ => show win0_6.index t (0 : Fin 2) * 32 + 1 * r.val = 32 * t.val + r.val; omega
  | ⟨1, _⟩ => show win0_6.index t (1 : Fin 2) * 1 + 1 * 0 = 0; omega

variable (a1 a2 a4 a5 : Dev nD → S16384x256.Idx → ℝ)

/-- The output array after the run: row b holds the cosine of row b of the inputs. -/
def G (c : Dev nD) : S16384x1.Idx → EReal := fun i =>
  ((cosRow (m ((c : Thread nD τ).loc main_arg0)) (m ((c : Thread nD τ).loc main_arg3)) (a1 c) (a2 c) (a4 c) (a5 c) (i 0) : ℝ) : EReal)

/-- What point t writes back is block t of that array: each of its 32 rows is the cosine of the row's three quadratic
    forms, read from the input blocks, which are rows 32 t … 32 t + 31 of the input arrays. -/
theorem flushed6_eq
    (h1 : ∀ c : Dev nD, m ((c : Thread nD τ).loc main_arg1) = fun i => ((a1 c i : ℝ) : EReal))
    (h2 : ∀ c : Dev nD, m ((c : Thread nD τ).loc main_arg2) = fun i => ((a2 c i : ℝ) : EReal))
    (h4 : ∀ c : Dev nD, m ((c : Thread nD τ).loc main_arg4) = fun i => ((a4 c i : ℝ) : EReal))
    (h5 : ∀ c : Dev nD, m ((c : Thread nD τ).loc main_arg5) = fun i => ((a5 c i : ℝ) : EReal))
    (c : Dev nD) (t : Fin cfg0.N) :
    (dats m 0 c).flushed 6 t = ((cfg0.win 6).blk t).view.read (Elt Ideal) (G m a1 a2 a4 a5 c) := by
  show (cfg0.win 6).cut (grid0.coords t) ((dats m 0 c).after 6 t) = _
  rw [after0_6]
  unfold out0_6
  rw [View.canon_unit_zero hz]
  simp only [View.ld_unit_zero (S := S32x256) hz]
  funext y
  obtain ⟨r, q, rfl⟩ : ∃ (r : Fin 32) (q : Fin 1), y = ix2 r q := ⟨y 0, y 1, eq_ix2 y⟩
  obtain rfl : q = 0 := Subsingleton.elim _ _
  refine (KernelRow.pay_row (iblk m c 0 t) (iblk m c 1 t) (iblk m c 2 t) (iblk m c 3 t) (iblk m c 4 t) (iblk m c 5 t)
    (fun j => a1 c (ix2 (row t (j 0)) (j 1))) (fun j => a2 c (ix2 (row t (j 0)) (j 1)))
    (fun j => a4 c (ix2 (row t (j 0)) (j 1))) (fun j => a5 c (ix2 (row t (j 0)) (j 1))) ?_ ?_ ?_ ?_ r).trans ?_
  · funext j
    obtain ⟨r', i', rfl⟩ : ∃ (r' : Fin 32) (i' : Fin 256), j = ix2 r' i' := ⟨j 0, j 1, eq_ix2 j⟩
    rw [blk1, h1 c]
  · funext j
    obtain ⟨r', i', rfl⟩ : ∃ (r' : Fin 32) (i' : Fin 256), j = ix2 r' i' := ⟨j 0, j 1, eq_ix2 j⟩
    rw [blk2, h2 c]
  · funext j
    obtain ⟨r', i', rfl⟩ : ∃ (r' : Fin 32) (i' : Fin 256), j = ix2 r' i' := ⟨j 0, j 1, eq_ix2 j⟩
    rw [blk4, h4 c]
  · funext j
    obtain ⟨r', i', rfl⟩ : ∃ (r' : Fin 32) (i' : Fin 256), j = ix2 r' i' := ⟨j 0, j 1, eq_ix2 j⟩
    rw [blk5, h5 c]
  · show _ = G m a1 a2 a4 a5 c (((cfg0.win 6).blk t).view.emb (ix2 r (0 : Fin 1)))
    rw [emb6]
    unfold G cosRow
    simp only [blk0 m c t r, blk3 m c t r]

/-- An index of the output array is in point t's block iff its row is one of the block's 32 rows. -/
theorem mem_blk6 (t : Fin cfg0.N) (i : S16384x1.Idx) :
    i ∈ ((cfg0.win 6).blk t).view.set ↔ ∀ a : Fin 2, win0_6.index t a * S32x1.size a ≤ (i a).val ∧ (i a).val < win0_6.index t a * S32x1.size a + S32x1.size a := by
  show i ∈ ((View.whole main_v0).slice (win0_6.rect t)).set ↔ _
  rw [View.set_slice_whole, Rect.mem_set_unit]
  exact Iff.rfl

/-- Every row of the output is in some point's block: row b in the block of point b / 32. -/
theorem cover6 (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  refine ⟨⟨(i 0).val / 32, by show (i 0).val / 32 < 512; omega⟩, flush0_6 _, ?_⟩
  rw [mem_blk6]
  obtain ⟨-, -, -, -, -, -, -, -, -, -, -, -, e0, e1⟩ := idx_facts ⟨(i 0).val / 32, by show (i 0).val / 32 < 512; omega⟩
  intro a
  match a with
  | ⟨0, _⟩ =>
    show win0_6.index _ (0 : Fin 2) * 32 ≤ (i 0).val ∧ (i 0).val < win0_6.index _ (0 : Fin 2) * 32 + 32
    rw [e0]; show (i 0).val / 32 * 32 ≤ (i 0).val ∧ (i 0).val < (i 0).val / 32 * 32 + 32; omega
  | ⟨1, _⟩ =>
    show win0_6.index _ (1 : Fin 2) * 1 ≤ (i 1).val ∧ (i 1).val < win0_6.index _ (1 : Fin 2) * 1 + 1
    rw [e1]; omega

/-- The output array after the run. -/
theorem final6
    (h1 : ∀ c : Dev nD, m ((c : Thread nD τ).loc main_arg1) = fun i => ((a1 c i : ℝ) : EReal))
    (h2 : ∀ c : Dev nD, m ((c : Thread nD τ).loc main_arg2) = fun i => ((a2 c i : ℝ) : EReal))
    (h4 : ∀ c : Dev nD, m ((c : Thread nD τ).loc main_arg4) = fun i => ((a4 c i : ℝ) : EReal))
    (h5 : ∀ c : Dev nD, m ((c : Thread nD τ).loc main_arg5) = fun i => ((a5 c i : ℝ) : EReal))
    (c : Dev nD) : (dats m 0 c).arrAt 6 cfg0.N = G m a1 a2 a4 a5 c :=
  (dats m 0 c).arrAt_eq_of_cover 6 (G m a1 a2 a4 a5 c) (fun t _ => flushed6_eq m a1 a2 a4 a5 h1 h2 h4 h5 c t) cover6

/-- The host lines after the region as one function of a length-16384 vector: its sum (from zero), divided by 16384,
    subtracted from one, multiplied by one. -/
def tail (z : S16384.Idx → EReal) : S_.Idx → EReal :=
  mulf (constant (F := Ideal) S_ .f32 0x3F800000#32)
    (subf (constant (F := Ideal) S_ .f32 0x3F800000#32)
      (Host.divf (Host.reduceAdd (F := Ideal) (φ := .f32) z (constant (F := Ideal) S_ .f32 0x00000000#32) Gen.reducesTo_S16384_S_d0 Gen.h_S_)
        (constant (F := Ideal) S_ .f32 0x46800000#32)))

/-- The program's result after the run: the host lines applied to the output array folded to a vector, whose entry b
    is the output's row b. -/
theorem result_eq
    (h1 : ∀ c : Dev nD, m ((c : Thread nD τ).loc main_arg1) = fun i => ((a1 c i : ℝ) : EReal))
    (h2 : ∀ c : Dev nD, m ((c : Thread nD τ).loc main_arg2) = fun i => ((a2 c i : ℝ) : EReal))
    (h4 : ∀ c : Dev nD, m ((c : Thread nD τ).loc main_arg4) = fun i => ((a4 c i : ℝ) : EReal))
    (h5 : ∀ c : Dev nD, m ((c : Thread nD τ).loc main_arg5) = fun i => ((a5 c i : ℝ) : EReal))
    (c : Dev nD) :
    Pipeline.afterTail₀ cfgs (dats m) 0 (V0 m) [hostOps1] c main_v5
      = tail (fun j => G m a1 a2 a4 a5 c (ix2 (j 0) (0 : Fin 1))) := by
  have hW : Pipeline.withArrays (cfgs 0).spec c (V0 m c) (fun w => (dats m 0 c).arrAt w (cfgs 0).N) (Proc.tc.devRef main_v0)
      = G m a1 a2 a4 a5 c :=
    (Pipeline.withArrays_arr spec0 launch0.win.arr_inj c _ _ 6).trans (final6 m a1 a2 a4 a5 h1 h2 h4 h5 c)
  unfold Pipeline.afterTail₀
  show StableHlo.after hostOps1 _ (Proc.devRef .tc main_v5) = _
  after_results
  rw [hW]
  unfold tail
  refine congrArg (fun z => mulf (constant (F := Ideal) S_ .f32 0x3F800000#32)
    (subf (constant (F := Ideal) S_ .f32 0x3F800000#32)
      (Host.divf (Host.reduceAdd (F := Ideal) (φ := .f32) z (constant (F := Ideal) S_ .f32 0x00000000#32) Gen.reducesTo_S16384_S_d0 Gen.h_S_)
        (constant (F := Ideal) S_ .f32 0x46800000#32)))) ?_
  funext j
  show shapeCast S16384 (G m a1 a2 a4 a5 c) Gen.shapeCasts_S16384x1_S16384 j = _
  refine shapeCast_apply _ _ j (ix2 (j 0) (0 : Fin 1)) ?_
  show ((⟨2, ![16384, 1]⟩ : Shape).rowMajor (ix2 (j 0) (0 : Fin 1))).val = ((⟨1, ![16384]⟩ : Shape).rowMajor j).val
  rw [Shape.rowMajor_val_two, Shape.rowMajor_val_one]
  show (j 0).val * 1 + 0 = (j 0).val
  omega

/-- The result buffer is none of the region's arrays, so the run leaves it as the host lines after the region do. -/
theorem v5_rest : main_v5 ∈ Pipeline.restRefs sig (cfgs 0).spec :=
  Pipeline.mem_restRefs_of main_v5 rfl (by intro w; fin_cases w <;> decide)

/-- THE KERNEL'S RUN, READ: every weakly fair execution ends with the result at the host lines applied to the vector of
    row cosines, and the six argument arrays unchanged. -/
theorem run_value
    (h1 : ∀ c : Dev nD, m ((c : Thread nD τ).loc main_arg1) = fun i => ((a1 c i : ℝ) : EReal))
    (h2 : ∀ c : Dev nD, m ((c : Thread nD τ).loc main_arg2) = fun i => ((a2 c i : ℝ) : EReal))
    (h4 : ∀ c : Dev nD, m ((c : Thread nD τ).loc main_arg4) = fun i => ((a4 c i : ℝ) : EReal))
    (h5 : ∀ c : Dev nD, m ((c : Thread nD τ).loc main_arg5) = fun i => ((a5 c i : ℝ) : EReal)) :
    θ_run (defs (F := Ideal)) (onTc (τ := τ) (main (F := Ideal))) ⟨m, fun _ => 0, ρ⟩ (fun r => ∀ c : Dev nD,
      r.2.mem ((c.tc : Thread nD τ).loc main_v5) = tail (fun j => G m a1 a2 a4 a5 c (ix2 (j 0) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v5 v5_rest).trans (result_eq m a1 a2 a4 a5 h1 h2 h4 h5 c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelArray

end
-- ==== Proof.LibScatterAddVec.lean ====
/-
  An accumulating scatter into a vector, read at one cell.

  The operand is a length-N vector, the updates a length-R vector, and there is one scatter index per update, held as an
  R × 1 column: the operand's only axis is the inserted axis, and there is no window axis. Update e goes to the cell
  start e, where start e is the scatter index of e read as a signed number and not clamped; it is added there when that
  cell is inside the operand, and dropped when start e lies outside [0, N).

  Hence update e lands on the cell n exactly when its index reads n; and the cell n ends at its old value plus the sum
  of upd e over the updates e whose index reads n.
-/
import Mathlib.Algebra.BigOperators.Group.Finset.Defs
import Mathlib.Tactic.Set
import Idealize.ShloMosaic.Lib.StableHlo.Predicate
import Idealize.ShloMosaic.Lib.ValueIdx
import Idealize.ShloMosaic.PureOps.Ideal
import Idealize.ShloMosaic.PureOps.ShapeOps

namespace Cert.LibScatterAddVec

open Idealize.ShloMosaic Idealize.ShloMosaic.StableHlo.Predicate Idealize.ShloMosaic.ValueIdx

/-- The dimension numbers of a scatter of R scalars into a length-N vector, one index per scalar. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The start on the operand's axis is the scatter index of update j 0, read signed. -/
theorem start_vec (idx : IVec ⟨2, ![R, 1]⟩ w) (j : (⟨1, ![R]⟩ : Shape).Idx) :
    (vecDims N R wf).start j idx 0 = (idx (ixP (j 0))).toInt := by
  unfold ScatterDims.start
  rw [dif_pos (List.mem_singleton.mpr rfl)]
  congr 2
  funext b
  apply Fin.ext
  match b with
  | ⟨0, _⟩ => rfl
  | ⟨1, _⟩ => rfl

/-- The operand's axis is inserted: the window coordinate on it is 0. -/
theorem window_vec (j : (⟨1, ![R]⟩ : Shape).Idx) : (vecDims N R wf).window j 0 = 0 := rfl

/-- Update j is kept exactly when its index lies in [0, N), and then it lands on that cell. -/
theorem resultIdx_vec_iff (idx : IVec ⟨2, ![R, 1]⟩ w) (j : (⟨1, ![R]⟩ : Shape).Idx) (n : Fin N) :
    (vecDims N R wf).resultIdx? j idx = some (ix1 n) ↔ (idx (ixP (j 0))).toInt = (n.val : Int) := by
  have hs0 := start_vec wf idx j
  have hw0 := window_vec (N := N) wf j
  unfold ScatterDims.resultIdx?
  constructor
  · intro h
    by_cases hr : ∀ a, 0 ≤ (vecDims N R wf).start j idx a + (vecDims N R wf).window j a ∧
        (vecDims N R wf).start j idx a + (vecDims N R wf).window j a < (⟨1, ![N]⟩ : Shape).size a
    · rw [dif_pos hr] at h
      have he := Option.some.inj h
      have h0 : ((vecDims N R wf).start j idx 0 + ((vecDims N R wf).window j 0 : Int)).toNat = n.val :=
        congrArg Fin.val (congrFun he 0)
      have hr0 : 0 ≤ (vecDims N R wf).start j idx 0 + ((vecDims N R wf).window j 0 : Int) := (hr 0).1
      rw [hs0, hw0] at h0 hr0
      omega
    · rw [dif_neg hr] at h
      exact absurd h (by simp)
  · intro hn
    have hr : ∀ a, 0 ≤ (vecDims N R wf).start j idx a + (vecDims N R wf).window j a ∧
        (vecDims N R wf).start j idx a + (vecDims N R wf).window j a < (⟨1, ![N]⟩ : Shape).size a := by
      intro a
      match a with
      | ⟨0, _⟩ =>
        show 0 ≤ (vecDims N R wf).start j idx 0 + (vecDims N R wf).window j 0 ∧
          (vecDims N R wf).start j idx 0 + ((vecDims N R wf).window j 0 : Int) < (N : Int)
        rw [hs0, hw0, hn]
        have := n.isLt
        omega
    rw [dif_pos hr]
    congr 1
    funext a
    apply Fin.ext
    match a with
    | ⟨0, _⟩ =>
      show ((vecDims N R wf).start j idx 0 + ((vecDims N R wf).window j 0 : Int)).toNat = n.val
      rw [hs0, hw0, hn]; simp

/-- ACCUMULATION INTO A VECTOR, read at the cell n: the old value plus the sum of upd e over the updates e whose index
    reads n. The updates that land on n are matched one to one with those e by j ↦ j 0 (its inverse is e ↦ (e)). -/
theorem scatterAdd_vec_apply (x : FVec Ideal ⟨1, ![N]⟩ .f32) (idx : IVec ⟨2, ![R, 1]⟩ w)
    (upd : FVec Ideal ⟨1, ![R]⟩ .f32) (n : Fin N) :
    Host.scatterAdd (F := Ideal) (vecDims N R wf) x idx upd (ix1 n)
      = x (ix1 n) + ∑ e ∈ Finset.univ.filter (fun e : Fin R => (idx (ixP e)).toInt = (n.val : Int)), upd (ix1 e) := by
  have hiff := fun j => resultIdx_vec_iff wf idx j n
  show Ideal.hostScatterAdd (vecDims N R wf) x idx upd (ix1 n) = _
  unfold Ideal.hostScatterAdd
  refine congrArg (fun t => x (ix1 n) + t) ?_
  refine Finset.sum_nbij' (fun j => j 0) (fun e => ix1 e) ?_ ?_ ?_ ?_ ?_
  · intro j hj
    exact Finset.mem_filter.mpr ⟨Finset.mem_univ _, (hiff j).mp (Finset.mem_filter.mp hj).2⟩
  · intro e he
    exact Finset.mem_filter.mpr ⟨Finset.mem_univ _, (hiff (ix1 e)).mpr (Finset.mem_filter.mp he).2⟩
  · intro j _
    exact (eq_ix1 j).symm
  · intro e _
    rfl
  · intro j _
    exact congrArg upd (eq_ix1 j)

end Cert.LibScatterAddVec
-- ==== Proof.RefHist.lean ====
/-
  The reference's two histograms, read at one cell.

  The reference offsets each peak's bin by 2000 times its row, flattens the 16384 × 256 weights and indices, adds every
  weight into the cell of a zero vector of length 16384 · 2000 its index names, and folds the vector back to
  16384 × 2000. A flattened peak (b', i) lands on the cell 2000 b + k exactly when b' = b and its bin is k (a bin is in
  [0, 2000)), so cell (b, k) holds the sum of the weights of row b's peaks whose bin is k: the row's histogram.
-/
import proofs.«120781_j54434415509810_1_alg».proof.Proof.Gen.ReferenceIdeal.Read
import proofs.«120781_j54434415509810_1_alg».proof.Proof.Spec
import proofs.«120781_j54434415509810_1_alg».proof.Proof.Consts
import proofs.«120781_j54434415509810_1_alg».proof.Proof.IdealReal
import proofs.«120781_j54434415509810_1_alg».proof.Proof.LibScatterAddVec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.RefHist

open Idealize.ShloMosaic Idealize.ShloMosaic.ValueIdx Cert.ReferenceIdeal Cert.ReferenceIdeal.Read
open Idealize.ShloMosaic.StableHlo.Predicate

/-- The row of a flattened position e of the 16384 × 256 grid: e / 256. -/
def rowOf (e : Fin 4194304) : Fin 16384 := ⟨e.val / 256, by have := e.isLt; omega⟩

/-- The column of a flattened position e of the 16384 × 256 grid: e % 256. -/
def colOf (e : Fin 4194304) : Fin 256 := ⟨e.val % 256, by have := e.isLt; omega⟩

/-- The flattened position of the grid point (b, i): 256 b + i. -/
def flat (b : Fin 16384) (i : Fin 256) : Fin 4194304 :=
  ⟨b.val * 256 + i.val, by have := b.isLt; have := i.isLt; omega⟩

theorem rowOf_flat (b : Fin 16384) (i : Fin 256) : rowOf (flat b i) = b := by
  apply Fin.ext; show (b.val * 256 + i.val) / 256 = b.val; have := i.isLt; omega

theorem colOf_flat (b : Fin 16384) (i : Fin 256) : colOf (flat b i) = i := by
  apply Fin.ext; show (b.val * 256 + i.val) % 256 = i.val; have := i.isLt; omega

theorem flat_rowOf_colOf (e : Fin 4194304) : flat (rowOf e) (colOf e) = e := by
  apply Fin.ext; show e.val / 256 * 256 + e.val % 256 = e.val; omega

/-- A word w read signed in [0, 2000), plus 2000 times a row number r below 16384, does not wrap around: the sum stays
    below 2000 + 2000 · 16383 < 2 ^ 31, so it reads w + 2000 r. -/
theorem offset_toInt (w : BitVec 32) (hw : 0 ≤ w.toInt ∧ w.toInt < 2000) (r : ℕ) (hr : r < 16384) :
    (IntOp.addi w (IntOp.muli (BitVec.ofNat 32 r) 2000#32)).toInt = w.toInt + 2000 * (r : ℤ) := by
  have hc := BitVec.toInt_eq_toNat_cond w
  have hlt := w.isLt
  have hwn : w.toNat < 2000 ∧ w.toInt = (w.toNat : ℤ) := by
    split_ifs at hc <;> omega
  have hn : (IntOp.addi w (IntOp.muli (BitVec.ofNat 32 r) 2000#32)).toNat = w.toNat + 2000 * r := by
    show (w + BitVec.ofNat 32 r * 2000#32).toNat = _
    rw [BitVec.toNat_add, BitVec.toNat_mul, BitVec.toNat_ofNat]
    show (w.toNat + r % 2 ^ 32 * 2000 % 2 ^ 32) % 2 ^ 32 = _
    omega
  rw [toInt_eq_toNat_of_lt (by rw [hn]; omega), hn, hwn.2]
  push_cast; ring

/-- THE CELL OF THE ACCUMULATED VECTOR. The operand is zero; update e carries the product of the two weights at the grid
    point (rowOf e, colOf e) and is addressed to the bin of that point plus 2000 times its row. A bin lies in [0, 2000),
    so bin + 2000 r = 2000 b + k forces r = b and bin = k: the updates that reach the cell 2000 b + k are the points
    (b, i) of row b whose bin is k, matched with the columns i by e ↦ colOf e (inverse i ↦ flat b i). Their weights add
    up to row b's histogram at k. -/
theorem scatter_cell (x : FVec Ideal S32768000 .f32) (idx : IVec S4194304x1 32) (upd : FVec Ideal S4194304 .f32)
    (x0 : S16384x256.Idx → EReal) (a1 a2 : S16384x256.Idx → ℝ)
    (hx : ∀ n : Fin 32768000, x (ix1 n) = 0)
    (hidx : ∀ e : Fin 4194304, idx (ixP e)
      = IntOp.addi (IdealReal.binW (x0 (ix2 (rowOf e) (colOf e)))) (IntOp.muli (BitVec.ofNat 32 (rowOf e).val) 2000#32))
    (hupd : ∀ e : Fin 4194304, upd (ix1 e)
      = ((a1 (ix2 (rowOf e) (colOf e)) : ℝ) : EReal) * ((a2 (ix2 (rowOf e) (colOf e)) : ℝ) : EReal))
    (b : Fin 16384) (k : Fin 2000) (n : Fin 32768000) (hn : n.val = b.val * 2000 + k.val) :
    Host.scatterAdd (F := Ideal) scatter_S32768000_S4194304x1_S4194304_n_0_0_1 x idx upd (ix1 n)
      = ((Spec.hist (fun i : Fin 256 => IdealReal.binZ (x0 (ix2 b i))) (fun i : Fin 256 => a1 (ix2 b i) * a2 (ix2 b i)) k : ℝ) : EReal) := by
  have hrec : scatter_S32768000_S4194304x1_S4194304_n_0_0_1
      = LibScatterAddVec.vecDims 32768000 4194304 Facts₀.scatter_S32768000_S4194304x1_S4194304_n_0_0_1_wf := rfl
  -- where update e is addressed, as a signed number
  have key : ∀ e : Fin 4194304, (idx (ixP e)).toInt
      = IdealReal.binZ (x0 (ix2 (rowOf e) (colOf e))) + 2000 * ((rowOf e).val : ℤ) := by
    intro e
    rw [hidx e]
    exact offset_toInt _ (IdealReal.clamp_range _) _ (rowOf e).isLt
  -- it reaches the cell 2000 b + k exactly when its row is b and its bin is k
  have land : ∀ e : Fin 4194304, (idx (ixP e)).toInt = (n.val : ℤ) →
      rowOf e = b ∧ IdealReal.binZ (x0 (ix2 b (colOf e))) = (k.val : ℤ) := by
    intro e he
    have hr := IdealReal.binZ_range (x0 (ix2 (rowOf e) (colOf e)))
    have hk := k.isLt
    rw [key e, hn] at he
    have hb : rowOf e = b := by
      apply Fin.ext
      push_cast at he hr
      omega
    refine ⟨hb, ?_⟩
    rw [hb] at he
    push_cast at he
    omega
  rw [hrec, LibScatterAddVec.scatterAdd_vec_apply, hx, zero_add]
  unfold Spec.hist
  rw [IdealReal.coe_sum]
  refine Finset.sum_nbij' (fun e => colOf e) (fun i => flat b i) ?_ ?_ ?_ ?_ ?_
  · intro e he
    exact Finset.mem_filter.mpr ⟨Finset.mem_univ _, (land e (Finset.mem_filter.mp he).2).2⟩
  · intro i hi
    refine Finset.mem_filter.mpr ⟨Finset.mem_univ _, ?_⟩
    have hi' : IdealReal.binZ (x0 (ix2 b i)) = (k.val : ℤ) := (Finset.mem_filter.mp hi).2
    rw [key (flat b i), rowOf_flat, colOf_flat, hi', hn]
    push_cast; ring
  · intro e he
    have hb := (land e (Finset.mem_filter.mp he).2).1
    show flat b (colOf e) = e
    rw [← hb]; exact flat_rowOf_colOf e
  · intro i _
    exact colOf_flat b i
  · intro e he
    have hb := (land e (Finset.mem_filter.mp he).2).1
    rw [hupd e, hb, EReal.coe_mul]

/-- The grid point a flattened position names, as the reshape of the index words reads it. -/
theorem idx13_eq (e : Fin 4194304) : idx_main_v13 (idx_main_v16 (ixP e)) = ix2 (rowOf e) (colOf e) := by
  funext a; match a with | ⟨0, _⟩ => rfl | ⟨1, _⟩ => rfl

/-- The grid point a flattened position names, as the reshape of the weights reads it. -/
theorem idx14_eq (e : Fin 4194304) : idx_main_v14 (ix1 e) = ix2 (rowOf e) (colOf e) := by
  funext a; match a with | ⟨0, _⟩ => rfl | ⟨1, _⟩ => rfl

/-- The cell the folded array reads at (b, k): 2000 b + k of the vector. -/
theorem idx18_eq (b : Fin 16384) (k : Fin 2000) :
    idx_main_v18 (ix2 b k) = ix1 ⟨b.val * 2000 + k.val, by have := b.isLt; have := k.isLt; omega⟩ := by
  funext a; match a with | ⟨0, _⟩ => rfl

/-- The index word of update e in the predicted list: the bin of its grid point plus 2000 times its row. Dividing by
    the constant one changes nothing, so the clipped word is the bin word. -/
theorem idx_pred (x0 : (⟨S16384x256, .f32⟩ : BufTy).Contents (Elt Ideal)) (e : Fin 4194304) :
    val_main_v16 (F := Ideal) x0 (ixP e)
      = IntOp.addi (IdealReal.binW (x0 (ix2 (rowOf e) (colOf e)))) (IntOp.muli (BitVec.ofNat 32 (rowOf e).val) 2000#32) := by
  rw [val_main_v16_apply, val_main_v13_apply, idx13_eq, val_main_v12_apply, val_main_v6_apply, val_main_call0_v4_apply,
    val_main_call0_v3_apply, val_main_c_1_apply, val_main_call0_v2_apply, val_main_call0_v1_apply, val_main_call0_v0_apply,
    val_main_c_apply, val_main_v5_apply, val_main_v4_apply, val_main_v2_apply, val_main_v1_apply, val_main_cst_apply,
    val_main_v3_apply, val_main_cst_0_apply, val_main_v11_apply, val_main_v10_apply, val_main_v8_apply, val_main_v7_apply,
    val_main_v9_apply, val_main_c_2_apply]
  show IntOp.addi (IntOp.minsi 1999#32 (IntOp.maxsi 0#32 (Ideal.fptosi 32
      (Ideal.div (x0 (ix2 (rowOf e) (colOf e)) * Ideal.ofBits .f32 0x44FA0000#32) (Ideal.ofBits .f32 0x3F800000#32)))))
      (IntOp.muli (BitVec.ofNat 32 (rowOf e).val) 2000#32) = _
  rw [Consts.ofBits_one, IdealReal.div_one]
  rfl

/-- The operand of the predicted list's accumulation is the zero vector. -/
theorem zero_pred (n : Fin 32768000) : val_main_v15 (F := Ideal) (ix1 n) = 0 := by
  rw [val_main_v15_apply, val_main_cst_3_apply]
  exact Consts.ofBits_zero

/-- Update e of the predicted list is the product of the two weights at its grid point. -/
theorem upd_pred (x1 x2 : (⟨S16384x256, .f32⟩ : BufTy).Contents (Elt Ideal)) (a1 a2 : S16384x256.Idx → ℝ)
    (h1 : x1 = fun i => ((a1 i : ℝ) : EReal)) (h2 : x2 = fun i => ((a2 i : ℝ) : EReal)) (e : Fin 4194304) :
    val_main_v14 (F := Ideal) x1 x2 (ix1 e)
      = ((a1 (ix2 (rowOf e) (colOf e)) : ℝ) : EReal) * ((a2 (ix2 (rowOf e) (colOf e)) : ℝ) : EReal) := by
  rw [val_main_v14_apply, idx14_eq, val_main_v0_apply, h1, h2]
  rfl

/-- The grid point a flattened position names, as the target list's reshape of the index words reads it. -/
theorem idx40_eq (e : Fin 4194304) : idx_main_v40 (idx_main_v43 (ixP e)) = ix2 (rowOf e) (colOf e) := by
  funext a; match a with | ⟨0, _⟩ => rfl | ⟨1, _⟩ => rfl

/-- The grid point a flattened position names, as the target list's reshape of the weights reads it. -/
theorem idx41_eq (e : Fin 4194304) : idx_main_v41 (ix1 e) = ix2 (rowOf e) (colOf e) := by
  funext a; match a with | ⟨0, _⟩ => rfl | ⟨1, _⟩ => rfl

/-- The cell the target list's folded array reads at (b, k): 2000 b + k of the vector. -/
theorem idx45_eq (b : Fin 16384) (k : Fin 2000) :
    idx_main_v45 (ix2 b k) = ix1 ⟨b.val * 2000 + k.val, by have := b.isLt; have := k.isLt; omega⟩ := by
  funext a; match a with | ⟨0, _⟩ => rfl

/-- The index word of update e in the target list: the bin of its grid point plus 2000 times its row. -/
theorem idx_target (x3 : (⟨S16384x256, .f32⟩ : BufTy).Contents (Elt Ideal)) (e : Fin 4194304) :
    val_main_v43 (F := Ideal) x3 (ixP e)
      = IntOp.addi (IdealReal.binW (x3 (ix2 (rowOf e) (colOf e)))) (IntOp.muli (BitVec.ofNat 32 (rowOf e).val) 2000#32) := by
  rw [val_main_v43_apply, val_main_v40_apply, idx40_eq, val_main_v39_apply, val_main_v33_apply, val_main_call1_v4_apply,
    val_main_call1_v3_apply, val_main_c_9_apply, val_main_call1_v2_apply, val_main_call1_v1_apply, val_main_call1_v0_apply,
    val_main_c_8_apply, val_main_v32_apply, val_main_v31_apply, val_main_v29_apply, val_main_v28_apply, val_main_cst_6_apply,
    val_main_v30_apply, val_main_cst_7_apply, val_main_v38_apply, val_main_v37_apply, val_main_v35_apply, val_main_v34_apply,
    val_main_v36_apply, val_main_c_10_apply]
  show IntOp.addi (IntOp.minsi 1999#32 (IntOp.maxsi 0#32 (Ideal.fptosi 32
      (Ideal.div (x3 (ix2 (rowOf e) (colOf e)) * Ideal.ofBits .f32 0x44FA0000#32) (Ideal.ofBits .f32 0x3F800000#32)))))
      (IntOp.muli (BitVec.ofNat 32 (rowOf e).val) 2000#32) = _
  rw [Consts.ofBits_one, IdealReal.div_one]
  rfl

/-- The operand of the target list's accumulation is the zero vector. -/
theorem zero_target (n : Fin 32768000) : val_main_v42 (F := Ideal) (ix1 n) = 0 := by
  rw [val_main_v42_apply, val_main_cst_11_apply]
  exact Consts.ofBits_zero

/-- Update e of the target list is the product of the two weights at its grid point. -/
theorem upd_target (x4 x5 : (⟨S16384x256, .f32⟩ : BufTy).Contents (Elt Ideal)) (a4 a5 : S16384x256.Idx → ℝ)
    (h4 : x4 = fun i => ((a4 i : ℝ) : EReal)) (h5 : x5 = fun i => ((a5 i : ℝ) : EReal)) (e : Fin 4194304) :
    val_main_v41 (F := Ideal) x4 x5 (ix1 e)
      = ((a4 (ix2 (rowOf e) (colOf e)) : ℝ) : EReal) * ((a5 (ix2 (rowOf e) (colOf e)) : ℝ) : EReal) := by
  rw [val_main_v41_apply, idx41_eq, val_main_v27_apply, h4, h5]
  rfl

/-- Cell (b, k) of the predicted list's binned array is row b's histogram at bin k. -/
theorem hist_pred (x0 x1 x2 : (⟨S16384x256, .f32⟩ : BufTy).Contents (Elt Ideal)) (a1 a2 : S16384x256.Idx → ℝ)
    (h1 : x1 = fun i => ((a1 i : ℝ) : EReal)) (h2 : x2 = fun i => ((a2 i : ℝ) : EReal))
    (b : Fin 16384) (k : Fin 2000) :
    val_main_v18 (F := Ideal) x0 x1 x2 (ix2 b k)
      = ((Spec.hist (fun i : Fin 256 => IdealReal.binZ (x0 (ix2 b i))) (fun i : Fin 256 => a1 (ix2 b i) * a2 (ix2 b i)) k : ℝ) : EReal) := by
  rw [val_main_v18_apply, idx18_eq]
  exact scatter_cell (val_main_v15 (F := Ideal)) (val_main_v16 (F := Ideal) x0) (val_main_v14 (F := Ideal) x1 x2) x0 a1 a2
    zero_pred (idx_pred x0) (upd_pred x1 x2 a1 a2 h1 h2) b k _ rfl

/-- Cell (b, k) of the target list's binned array is row b's histogram at bin k. -/
theorem hist_target (x3 x4 x5 : (⟨S16384x256, .f32⟩ : BufTy).Contents (Elt Ideal)) (a4 a5 : S16384x256.Idx → ℝ)
    (h4 : x4 = fun i => ((a4 i : ℝ) : EReal)) (h5 : x5 = fun i => ((a5 i : ℝ) : EReal))
    (b : Fin 16384) (k : Fin 2000) :
    val_main_v45 (F := Ideal) x3 x4 x5 (ix2 b k)
      = ((Spec.hist (fun i : Fin 256 => IdealReal.binZ (x3 (ix2 b i))) (fun i : Fin 256 => a4 (ix2 b i) * a5 (ix2 b i)) k : ℝ) : EReal) := by
  rw [val_main_v45_apply, idx45_eq]
  exact scatter_cell (val_main_v42 (F := Ideal)) (val_main_v43 (F := Ideal) x3) (val_main_v41 (F := Ideal) x4 x5) x3 a4 a5
    zero_target (idx_target x3) (upd_target x4 x5 a4 a5 h4 h5) b k _ rfl

end Cert.RefHist

end
-- ==== Proof.RefRow.lean ====
/-
  The reference's cosine of one row, from the row's two histograms.

  After the two binned arrays the reference works row by row: each array's row norm (the square root of the row's sum of
  squares) plus ε divides the row; the two normalized rows' inner product is divided by the product of their norms, each
  floored at ε. When the two binned arrays hold reals, every step is real arithmetic (each divisor is positive, each
  square root is of a sum of squares), and the result is the cosine of the row's two histograms.
-/
import proofs.«120781_j54434415509810_1_alg».proof.Proof.Gen.ReferenceIdeal.Read
import proofs.«120781_j54434415509810_1_alg».proof.Proof.Spec
import proofs.«120781_j54434415509810_1_alg».proof.Proof.Consts
import proofs.«120781_j54434415509810_1_alg».proof.Proof.IdealReal
import Idealize.ShloMosaic.Lib.ValueIdx
import Idealize.ShloMosaic.Lib.Pipeline.Value
import Idealize.ShloMosaic.PureOps.Ideal.Laws

noncomputable section

open scoped BigOperators

namespace Cert.RefRow

open Idealize.ShloMosaic Idealize.ShloMosaic.ValueIdx Cert.ReferenceIdeal Cert.ReferenceIdeal.Read

/-! The index bookkeeping: a row sum at the vector entry b reads the cells (b, k); a cell (b, k) reads the column entry
    (b, 0) of a row quantity; the column entry (b, 0) reads the vector entry b. -/

theorem idx_v20 (b : Fin 16384) (k : Fin 2000) : idx_main_v20 (ix1 b) k = ix2 b k :=
  funext fun a => match a with | ⟨0, _⟩ => rfl | ⟨1, _⟩ => rfl

theorem idx_v47 (b : Fin 16384) (k : Fin 2000) : idx_main_v47 (ix1 b) k = ix2 b k :=
  funext fun a => match a with | ⟨0, _⟩ => rfl | ⟨1, _⟩ => rfl

theorem idx_v55 (b : Fin 16384) (k : Fin 2000) : idx_main_v55 (ix1 b) k = ix2 b k :=
  funext fun a => match a with | ⟨0, _⟩ => rfl | ⟨1, _⟩ => rfl

theorem idx_v57 (b : Fin 16384) (k : Fin 2000) : idx_main_v57 (ix1 b) k = ix2 b k :=
  funext fun a => match a with | ⟨0, _⟩ => rfl | ⟨1, _⟩ => rfl

theorem idx_v60 (b : Fin 16384) (k : Fin 2000) : idx_main_v60 (ix1 b) k = ix2 b k :=
  funext fun a => match a with | ⟨0, _⟩ => rfl | ⟨1, _⟩ => rfl

theorem idx_v25 (b : Fin 16384) (k : Fin 2000) : idx_main_v25 (ix2 b k) = ix2 b 0 :=
  funext fun a => match a with | ⟨0, _⟩ => rfl | ⟨1, _⟩ => rfl

theorem idx_v52 (b : Fin 16384) (k : Fin 2000) : idx_main_v52 (ix2 b k) = ix2 b 0 :=
  funext fun a => match a with | ⟨0, _⟩ => rfl | ⟨1, _⟩ => rfl

theorem idx_v21 (b : Fin 16384) : idx_main_v21 (ix2 b (0 : Fin 1)) = ix1 b :=
  funext fun a => match a with | ⟨0, _⟩ => rfl

theorem idx_v48 (b : Fin 16384) : idx_main_v48 (ix2 b (0 : Fin 1)) = ix1 b :=
  funext fun a => match a with | ⟨0, _⟩ => rfl

/-- A sum of squares of reals is not negative. -/
theorem sumsq_nonneg {N : ℕ} (f : Fin N → ℝ) : (0 : ℝ) ≤ ∑ l, f l * f l :=
  Finset.sum_nonneg fun l _ => mul_self_nonneg _

/-- A square root plus ε is not zero. -/
theorem sqrt_add_eps_ne (r : ℝ) : Real.sqrt r + Consts.epsR ≠ 0 :=
  ne_of_gt (add_pos_of_nonneg_of_pos (Real.sqrt_nonneg _) Consts.epsR_pos)

/-- The norm of row b of the first binned array, plus ε. -/
theorem normP (x0 x1 x2 : (⟨S16384x256, .f32⟩ : BufTy).Contents (Elt Ideal))
    (hp : Fin 16384 → Fin 2000 → ℝ)
    (H1 : ∀ (b : Fin 16384) (k : Fin 2000), val_main_v18 (F := Ideal) x0 x1 x2 (ix2 b k) = ((hp b k : ℝ) : EReal))
    (b : Fin 16384) :
    val_main_v24 (F := Ideal) x0 x1 x2 (ix2 b 0)
      = ((Real.sqrt (∑ l, hp b l * hp b l) + Consts.epsR : ℝ) : EReal) := by
  rw [val_main_v24_apply, val_main_v22_apply, val_main_v21_apply, idx_v21, val_main_v20_apply,
    val_main_v23_apply, val_main_cst_5_apply, val_main_cst_4_apply]
  have hs : ∀ k : Fin 2000, val_main_v19 (F := Ideal) x0 x1 x2 (idx_main_v20 (ix1 b) k) = ((hp b k * hp b k : ℝ) : EReal) := by
    intro k
    rw [idx_v20, val_main_v19_apply, H1, Ideal.mulf_def, EReal.coe_mul]
  rw [Finset.sum_congr rfl (fun k _ => hs k), Ideal.ofBits_def, Consts.ofBits_zero, zero_add, ← IdealReal.coe_sum,
    Ideal.hostUnary_sqrt_def, IdealReal.sqrt_real (sumsq_nonneg (hp b)), Ideal.ofBits_def, Consts.ofBits_eps,
    Ideal.addf_def, ← EReal.coe_add]

/-- A cell of the first binned array divided by its row's norm plus ε. -/
theorem cellP (x0 x1 x2 : (⟨S16384x256, .f32⟩ : BufTy).Contents (Elt Ideal))
    (hp : Fin 16384 → Fin 2000 → ℝ)
    (H1 : ∀ (b : Fin 16384) (k : Fin 2000), val_main_v18 (F := Ideal) x0 x1 x2 (ix2 b k) = ((hp b k : ℝ) : EReal))
    (b : Fin 16384) (k : Fin 2000) :
    val_main_v26 (F := Ideal) x0 x1 x2 (ix2 b k)
      = ((hp b k / (Real.sqrt (∑ l, hp b l * hp b l) + Consts.epsR) : ℝ) : EReal) := by
  rw [val_main_v26_apply, val_main_v25_apply, idx_v25, normP x0 x1 x2 hp H1, H1, Ideal.hostDivf_def,
    IdealReal.div_real _ (sqrt_add_eps_ne _)]

/-- The norm of row b of the second binned array, plus ε. -/
theorem normT (x3 x4 x5 : (⟨S16384x256, .f32⟩ : BufTy).Contents (Elt Ideal))
    (ht : Fin 16384 → Fin 2000 → ℝ)
    (H2 : ∀ (b : Fin 16384) (k : Fin 2000), val_main_v45 (F := Ideal) x3 x4 x5 (ix2 b k) = ((ht b k : ℝ) : EReal))
    (b : Fin 16384) :
    val_main_v51 (F := Ideal) x3 x4 x5 (ix2 b 0)
      = ((Real.sqrt (∑ l, ht b l * ht b l) + Consts.epsR : ℝ) : EReal) := by
  rw [val_main_v51_apply, val_main_v49_apply, val_main_v48_apply, idx_v48, val_main_v47_apply,
    val_main_v50_apply, val_main_cst_13_apply, val_main_cst_12_apply]
  have hs : ∀ k : Fin 2000, val_main_v46 (F := Ideal) x3 x4 x5 (idx_main_v47 (ix1 b) k) = ((ht b k * ht b k : ℝ) : EReal) := by
    intro k
    rw [idx_v47, val_main_v46_apply, H2, Ideal.mulf_def, EReal.coe_mul]
  rw [Finset.sum_congr rfl (fun k _ => hs k), Ideal.ofBits_def, Consts.ofBits_zero, zero_add, ← IdealReal.coe_sum,
    Ideal.hostUnary_sqrt_def, IdealReal.sqrt_real (sumsq_nonneg (ht b)), Ideal.ofBits_def, Consts.ofBits_eps,
    Ideal.addf_def, ← EReal.coe_add]

/-- A cell of the second binned array divided by its row's norm plus ε. -/
theorem cellT (x3 x4 x5 : (⟨S16384x256, .f32⟩ : BufTy).Contents (Elt Ideal))
    (ht : Fin 16384 → Fin 2000 → ℝ)
    (H2 : ∀ (b : Fin 16384) (k : Fin 2000), val_main_v45 (F := Ideal) x3 x4 x5 (ix2 b k) = ((ht b k : ℝ) : EReal))
    (b : Fin 16384) (k : Fin 2000) :
    val_main_v53 (F := Ideal) x3 x4 x5 (ix2 b k)
      = ((ht b k / (Real.sqrt (∑ l, ht b l * ht b l) + Consts.epsR) : ℝ) : EReal) := by
  rw [val_main_v53_apply, val_main_v52_apply, idx_v52, normT x3 x4 x5 ht H2, H2, Ideal.hostDivf_def,
    IdealReal.div_real _ (sqrt_add_eps_ne _)]

/-- The inner product of the two normalized rows. -/
theorem dotPT (x0 x1 x2 x3 x4 x5 : (⟨S16384x256, .f32⟩ : BufTy).Contents (Elt Ideal))
    (hp ht : Fin 16384 → Fin 2000 → ℝ)
    (H1 : ∀ (b : Fin 16384) (k : Fin 2000), val_main_v18 (F := Ideal) x0 x1 x2 (ix2 b k) = ((hp b k : ℝ) : EReal))
    (H2 : ∀ (b : Fin 16384) (k : Fin 2000), val_main_v45 (F := Ideal) x3 x4 x5 (ix2 b k) = ((ht b k : ℝ) : EReal))
    (b : Fin 16384) :
    val_main_v55 (F := Ideal) x0 x1 x2 x3 x4 x5 (ix1 b)
      = ((∑ k, (hp b k / (Real.sqrt (∑ l, hp b l * hp b l) + Consts.epsR))
            * (ht b k / (Real.sqrt (∑ l, ht b l * ht b l) + Consts.epsR)) : ℝ) : EReal) := by
  rw [val_main_v55_apply, val_main_cst_14_apply]
  have hs : ∀ k : Fin 2000, val_main_v54 (F := Ideal) x0 x1 x2 x3 x4 x5 (idx_main_v55 (ix1 b) k)
      = (((hp b k / (Real.sqrt (∑ l, hp b l * hp b l) + Consts.epsR))
            * (ht b k / (Real.sqrt (∑ l, ht b l * ht b l) + Consts.epsR)) : ℝ) : EReal) := by
    intro k
    rw [idx_v55, val_main_v54_apply, cellP x0 x1 x2 hp H1, cellT x3 x4 x5 ht H2, Ideal.mulf_def, EReal.coe_mul]
  rw [Finset.sum_congr rfl (fun k _ => hs k), Ideal.ofBits_def, Consts.ofBits_zero, zero_add, ← IdealReal.coe_sum]

/-- The norm of the first normalized row. -/
theorem nrmP (x0 x1 x2 : (⟨S16384x256, .f32⟩ : BufTy).Contents (Elt Ideal))
    (hp : Fin 16384 → Fin 2000 → ℝ)
    (H1 : ∀ (b : Fin 16384) (k : Fin 2000), val_main_v18 (F := Ideal) x0 x1 x2 (ix2 b k) = ((hp b k : ℝ) : EReal))
    (b : Fin 16384) :
    val_main_v58 (F := Ideal) x0 x1 x2 (ix1 b)
      = ((Real.sqrt (∑ k, (hp b k / (Real.sqrt (∑ l, hp b l * hp b l) + Consts.epsR))
            * (hp b k / (Real.sqrt (∑ l, hp b l * hp b l) + Consts.epsR))) : ℝ) : EReal) := by
  rw [val_main_v58_apply, val_main_v57_apply, val_main_cst_15_apply]
  have hs : ∀ k : Fin 2000, val_main_v56 (F := Ideal) x0 x1 x2 (idx_main_v57 (ix1 b) k)
      = (((hp b k / (Real.sqrt (∑ l, hp b l * hp b l) + Consts.epsR))
            * (hp b k / (Real.sqrt (∑ l, hp b l * hp b l) + Consts.epsR)) : ℝ) : EReal) := by
    intro k
    rw [idx_v57, val_main_v56_apply, cellP x0 x1 x2 hp H1, Ideal.mulf_def, EReal.coe_mul]
  rw [Finset.sum_congr rfl (fun k _ => hs k), Ideal.ofBits_def, Consts.ofBits_zero, zero_add, ← IdealReal.coe_sum,
    Ideal.hostUnary_sqrt_def, IdealReal.sqrt_real (sumsq_nonneg _)]

/-- The norm of the second normalized row. -/
theorem nrmT (x3 x4 x5 : (⟨S16384x256, .f32⟩ : BufTy).Contents (Elt Ideal))
    (ht : Fin 16384 → Fin 2000 → ℝ)
    (H2 : ∀ (b : Fin 16384) (k : Fin 2000), val_main_v45 (F := Ideal) x3 x4 x5 (ix2 b k) = ((ht b k : ℝ) : EReal))
    (b : Fin 16384) :
    val_main_v61 (F := Ideal) x3 x4 x5 (ix1 b)
      = ((Real.sqrt (∑ k, (ht b k / (Real.sqrt (∑ l, ht b l * ht b l) + Consts.epsR))
            * (ht b k / (Real.sqrt (∑ l, ht b l * ht b l) + Consts.epsR))) : ℝ) : EReal) := by
  rw [val_main_v61_apply, val_main_v60_apply, val_main_cst_16_apply]
  have hs : ∀ k : Fin 2000, val_main_v59 (F := Ideal) x3 x4 x5 (idx_main_v60 (ix1 b) k)
      = (((ht b k / (Real.sqrt (∑ l, ht b l * ht b l) + Consts.epsR))
            * (ht b k / (Real.sqrt (∑ l, ht b l * ht b l) + Consts.epsR)) : ℝ) : EReal) := by
    intro k
    rw [idx_v60, val_main_v59_apply, cellT x3 x4 x5 ht H2, Ideal.mulf_def, EReal.coe_mul]
  rw [Finset.sum_congr rfl (fun k _ => hs k), Ideal.ofBits_def, Consts.ofBits_zero, zero_add, ← IdealReal.coe_sum,
    Ideal.hostUnary_sqrt_def, IdealReal.sqrt_real (sumsq_nonneg _)]

/-- The larger of two reals, in the extended reals. -/
theorem coe_max (x y : ℝ) : max (x : EReal) (y : EReal) = ((max x y : ℝ) : EReal) :=
  (EReal.coe_strictMono.monotone.map_max).symm

/-- Row b of the reference's cosine vector, when the two binned arrays hold the reals hp and ht. -/
theorem ref_row_of_hists (x0 x1 x2 x3 x4 x5 : (⟨S16384x256, .f32⟩ : BufTy).Contents (Elt Ideal))
    (hp ht : Fin 16384 → Fin 2000 → ℝ)
    (H1 : ∀ (b : Fin 16384) (k : Fin 2000), val_main_v18 (F := Ideal) x0 x1 x2 (ix2 b k) = ((hp b k : ℝ) : EReal))
    (H2 : ∀ (b : Fin 16384) (k : Fin 2000), val_main_v45 (F := Ideal) x3 x4 x5 (ix2 b k) = ((ht b k : ℝ) : EReal))
    (b : Fin 16384) :
    val_main_v67 (F := Ideal) x0 x1 x2 x3 x4 x5 (ix1 b)
      = ((Spec.cosOfHists Consts.epsR (hp b) (ht b) : ℝ) : EReal) := by
  have hden : ∀ r s : ℝ, max r Consts.epsR * max s Consts.epsR ≠ 0 := fun r s =>
    ne_of_gt (mul_pos (lt_max_of_lt_right Consts.epsR_pos) (lt_max_of_lt_right Consts.epsR_pos))
  rw [val_main_v67_apply, val_main_v66_apply, val_main_v63_apply, val_main_v65_apply, val_main_v62_apply,
    val_main_v64_apply, val_main_cst_17_apply, val_main_cst_18_apply, dotPT x0 x1 x2 x3 x4 x5 hp ht H1 H2,
    nrmP x0 x1 x2 hp H1, nrmT x3 x4 x5 ht H2, Ideal.ofBits_def, Consts.ofBits_eps, Ideal.maximumf_def,
    Ideal.maximumf_def, coe_max, coe_max, Ideal.mulf_def, ← EReal.coe_mul, Ideal.hostDivf_def,
    IdealReal.div_real _ (hden _ _)]
  rfl

end Cert.RefRow

end
-- ==== Proof.Finite.lean ====
/-
  Finite inputs are real inputs.

  The precondition says of each of the six input arrays that every entry's absolute value is below +∞. An extended real
  whose absolute value max x (−x) is below +∞ is neither infinity, so it is a real number. The four weight arrays
  (the two intensities, the confidence and the mask) are therefore arrays of reals.
-/
import proofs.«120781_j54434415509810_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- The pattern of +∞ denotes the top element. -/
theorem ofBits_inf : Ideal.ofBits .f32 0x7F800000#32 = ⊤ := by
  simp [Ideal.ofBits, Ideal.ieee]

/-- An extended real whose absolute value compares below +∞ is a real. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

/-- Under the precondition the four weight arrays hold reals. -/
theorem real_of_pre [Facts] (x0 x1 x2 x3 x4 x5 : FVec Ideal S16384x256 .f32)
    (h : fn (F := Ideal) x0 x1 x2 x3 x4 x5 = fun _ => 1#1) :
    (∀ i, ∃ r : ℝ, x1 i = (r : EReal)) ∧ (∀ i, ∃ r : ℝ, x2 i = (r : EReal))
      ∧ (∀ i, ∃ r : ℝ, x4 i = (r : EReal)) ∧ (∀ i, ∃ r : ℝ, x5 i = (r : EReal)) := by
  have h0 := congrFun h ValueIdx.ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e4 i),
    fun i => real_of_abs_lt _ (Host.reduce_andi_all _ _ _ _ _ e5 i)⟩

end Cert.Finite

end
-- ==== Proof.Bridge.lean ====
/-
  The two programs compute the same number.

  Row b of the reference's cosine vector is the cosine of row b's two normalized histograms; row b of the kernel's output
  is the cosine from row b's three quadratic forms. The two are equal: the histograms' inner products ARE the quadratic
  forms, and the normalizations commute with the sums (the real identity of the row's mathematics; every weight is a real
  because the inputs are finite, every bin lies in [0, 2000)). Both programs then apply the same host lines to the vector
  of row cosines — its sum, divided by 16384, subtracted from one, multiplied by one — so the two results are equal.
-/
import proofs.«120781_j54434415509810_1_alg».proof.Proof.Gen.ReferenceIdeal.Read
import proofs.«120781_j54434415509810_1_alg».proof.Proof.KernelArray
import proofs.«120781_j54434415509810_1_alg».proof.Proof.RefHist
import proofs.«120781_j54434415509810_1_alg».proof.Proof.RefRow
import proofs.«120781_j54434415509810_1_alg».proof.Proof.Finite
import proofs.«120781_j54434415509810_1_alg».proof.Defs
import proofs.«120781_j54434415509810_1_alg».proof.Proof.Gen.Pre_finite_inputs

noncomputable section

open scoped BigOperators

namespace Cert.Bridge

open Idealize.ShloMosaic Idealize.ShloMosaic.TcCoe Idealize.ShloMosaic.ValueIdx Idealize.SL.Sem

/-- Row b of the reference's cosine vector is the row cosine the kernel computes. -/
theorem ref_row (x0 x1 x2 x3 x4 x5 : (⟨Cert.ReferenceIdeal.S16384x256, .f32⟩ : BufTy).Contents (Elt Ideal))
    (a1 a2 a4 a5 : Cert.ReferenceIdeal.S16384x256.Idx → ℝ)
    (h1 : x1 = fun i => ((a1 i : ℝ) : EReal)) (h2 : x2 = fun i => ((a2 i : ℝ) : EReal))
    (h4 : x4 = fun i => ((a4 i : ℝ) : EReal)) (h5 : x5 = fun i => ((a5 i : ℝ) : EReal)) (b : Fin 16384) :
    Cert.ReferenceIdeal.Read.val_main_v67 (F := Ideal) x0 x1 x2 x3 x4 x5 (ix1 b)
      = ((KernelArray.cosRow x0 x3 a1 a2 a4 a5 b : ℝ) : EReal) := by
  rw [RefRow.ref_row_of_hists x0 x1 x2 x3 x4 x5
    (fun b k => Spec.hist (fun i : Fin 256 => IdealReal.binZ (x0 (ix2 b i))) (fun i : Fin 256 => a1 (ix2 b i) * a2 (ix2 b i)) k)
    (fun b k => Spec.hist (fun i : Fin 256 => IdealReal.binZ (x3 (ix2 b i))) (fun i : Fin 256 => a4 (ix2 b i) * a5 (ix2 b i)) k)
    (fun b k => RefHist.hist_pred x0 x1 x2 a1 a2 h1 h2 b k) (fun b k => RefHist.hist_target x3 x4 x5 a4 a5 h4 h5 b k) b]
  unfold KernelArray.cosRow
  exact congrArg (fun r : ℝ => (r : EReal))
    (Spec.cos_eq (N := 2000) Consts.epsR_pos _ _ _ _ (fun i => IdealReal.binZ_range _) (fun i => IdealReal.binZ_range _))

/-- The reference's result is the host lines applied to the vector of row cosines. -/
theorem ref_result (x0 x1 x2 x3 x4 x5 : (⟨Cert.ReferenceIdeal.S16384x256, .f32⟩ : BufTy).Contents (Elt Ideal))
    (a1 a2 a4 a5 : Cert.ReferenceIdeal.S16384x256.Idx → ℝ)
    (h1 : x1 = fun i => ((a1 i : ℝ) : EReal)) (h2 : x2 = fun i => ((a2 i : ℝ) : EReal))
    (h4 : x4 = fun i => ((a4 i : ℝ) : EReal)) (h5 : x5 = fun i => ((a5 i : ℝ) : EReal)) :
    Cert.ReferenceIdeal.Read.val_main_v71 (F := Ideal) x0 x1 x2 x3 x4 x5
      = KernelArray.tail (fun j => ((KernelArray.cosRow x0 x3 a1 a2 a4 a5 (j 0) : ℝ) : EReal)) := by
  have hv : Cert.ReferenceIdeal.Read.val_main_v67 (F := Ideal) x0 x1 x2 x3 x4 x5
      = fun j => ((KernelArray.cosRow x0 x3 a1 a2 a4 a5 (j 0) : ℝ) : EReal) := by
    funext j
    obtain ⟨b, rfl⟩ : ∃ b : Fin 16384, j = ix1 b := ⟨j 0, eq_ix1 j⟩
    exact ref_row x0 x1 x2 x3 x4 x5 a1 a2 a4 a5 h1 h2 h4 h5 b
  unfold Cert.ReferenceIdeal.Read.val_main_v71 Cert.ReferenceIdeal.Read.val_main_v70 Cert.ReferenceIdeal.Read.val_main_v69
    Cert.ReferenceIdeal.Read.val_main_v68
  rw [hv]
  rfl

/-- THE VALUE CLAIM: from memories that agree on the six arguments, both programs run, leave the arguments unchanged,
    and end with the same result. -/
theorem algebraic : Cert.algebraic_KernelIdeal_ReferenceIdeal := by
  intro m ρ m' ρ' hpre hagree
  have hfin := fun c : Dev Cert.KernelIdeal.nD => Finite.real_of_pre _ _ _ _ _ _ (hpre c)
  choose a1 ha1 using fun c i => (hfin c).1 i
  choose a2 ha2 using fun c i => (hfin c).2.1 i
  choose a4 ha4 using fun c i => (hfin c).2.2.1 i
  choose a5 ha5 using fun c i => (hfin c).2.2.2 i
  have h1 : ∀ c : Dev Cert.KernelIdeal.nD, m ((c : Thread Cert.KernelIdeal.nD Cert.KernelIdeal.τ).loc Cert.KernelIdeal.main_arg1)
      = fun i => ((a1 c i : ℝ) : EReal) := fun c => funext (ha1 c)
  have h2 : ∀ c : Dev Cert.KernelIdeal.nD, m ((c : Thread Cert.KernelIdeal.nD Cert.KernelIdeal.τ).loc Cert.KernelIdeal.main_arg2)
      = fun i => ((a2 c i : ℝ) : EReal) := fun c => funext (ha2 c)
  have h4 : ∀ c : Dev Cert.KernelIdeal.nD, m ((c : Thread Cert.KernelIdeal.nD Cert.KernelIdeal.τ).loc Cert.KernelIdeal.main_arg4)
      = fun i => ((a4 c i : ℝ) : EReal) := fun c => funext (ha4 c)
  have h5 : ∀ c : Dev Cert.KernelIdeal.nD, m ((c : Thread Cert.KernelIdeal.nD Cert.KernelIdeal.τ).loc Cert.KernelIdeal.main_arg5)
      = fun i => ((a5 c i : ℝ) : EReal) := fun c => funext (ha5 c)
  refine ⟨fun c => KernelArray.tail (fun j => KernelArray.G m a1 a2 a4 a5 c (ix2 (j 0) (0 : Fin 1))),
    KernelArray.run_value m ρ a1 a2 a4 a5 h1 h2 h4 h5, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2.1,
    (hagree c).2.2.2.2.1, (hagree c).2.2.2.2.2]
  exact ref_result _ _ _ _ _ _ (a1 c) (a2 c) (a4 c) (a5 c) (h1 c) (h2 c) (h4 c) (h5 c)

end Cert.Bridge

end
-- ==== Proof.lean ====
/-
  The certificate of the binned-spectrum cosine loss.

  The kernel never forms the 2000-bin histograms of a row's two peak lists: it computes the three numbers a cosine
  needs — the squared norms of the two histograms and their inner product — as quadratic forms in the peak weights through
  the "same bin" indicator of pairs of peaks, then the cosine, per row, and the host averages the rows. The reference
  bins the peaks by an accumulating scatter, normalizes the histograms and takes their cosine similarity. Over the
  reals (the inputs finite) the two agree: a histogram inner product IS the quadratic form, and dividing a histogram by
  its positive norm-plus-ε commutes with the sums.

  The three frames are the generated ones (the reference's is its run with the result dropped); the idealization
  rewrote nothing, so there is nothing to preserve; the value claim is the bridge.
-/
import proofs.«120781_j54434415509810_1_alg».proof.Defs
import proofs.«120781_j54434415509810_1_alg».proof.Proof.Gen.Kernel
import proofs.«120781_j54434415509810_1_alg».proof.Proof.Gen.Kernel.Skeleton
import proofs.«120781_j54434415509810_1_alg».proof.Proof.Gen.Kernel.Launch
import proofs.«120781_j54434415509810_1_alg».proof.Proof.Gen.Kernel.Points
import proofs.«120781_j54434415509810_1_alg».proof.Proof.Gen.Kernel.Frame
import proofs.«120781_j54434415509810_1_alg».proof.Proof.Gen.KernelIdeal
import proofs.«120781_j54434415509810_1_alg».proof.Proof.Gen.KernelIdeal.Skeleton
import proofs.«120781_j54434415509810_1_alg».proof.Proof.Gen.KernelIdeal.Launch
import proofs.«120781_j54434415509810_1_alg».proof.Proof.Gen.KernelIdeal.Points
import proofs.«120781_j54434415509810_1_alg».proof.Proof.Gen.KernelIdeal.Frame
import proofs.«120781_j54434415509810_1_alg».proof.Proof.Gen.ReferenceIdeal
import proofs.«120781_j54434415509810_1_alg».proof.Proof.Gen.Pre_finite_inputs
import proofs.«120781_j54434415509810_1_alg».proof.Proof.Gen.ReferenceIdeal.Run
import proofs.«120781_j54434415509810_1_alg».proof.Proof.Gen.ReferenceIdeal.Read
import proofs.«120781_j54434415509810_1_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, Cert.Bridge.algebraic⟩

end Cert.Proof

end
